-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S400000x2 : Shape := ⟨2, ![400000, 2]⟩
abbrev S400000x1 : Shape := ⟨2, ![400000, 1]⟩
abbrev S64x128 : Shape := ⟨2, ![64, 128]⟩
abbrev S64 : Shape := ⟨1, ![64]⟩
abbrev S64x64 : Shape := ⟨2, ![64, 64]⟩
abbrev S64x129 : Shape := ⟨2, ![64, 129]⟩
abbrev S1x64 : Shape := ⟨2, ![1, 64]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x1 : S_.BroadcastsInDim S400000x1 (![] : Fin 0 → Fin S400000x1.rank)
  reducesTo_S400000x1_S_d0_1 : S400000x1.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x129 : S_.BroadcastsInDim S64x129 (![] : Fin 0 → Fin S64x129.rank)
  reducesTo_S64x129_S_d0_1 : S64x129.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_
  bcast_S_S400000x2 : S_.BroadcastsInDim S400000x2 (![] : Fin 0 → Fin S400000x2.rank)
  reducesTo_S400000x2_S_d0_1 : S400000x2.ReducesTo [0, 1] S_

variable [Facts]

def fn_part4 {F : FTy → Type} [FloatOps F] (main_arg2 : IVec S400000x2 32) (main_v58 : IVec S_ 1) (main_v68 : IVec S_ 1) : IVec S_ 1 :=
  let main_v69 : IVec S_ 1 := andi main_v58 main_v68
  let main_c_25 : IVec S_ 32 := constantI S_ 32 0#32
  let main_v70 : IVec S400000x2 32 := broadcastInDim S400000x2 ![] bcast_S_S400000x2 main_c_25
  let main_v71 : IVec S400000x2 1 := cmpi .sge main_arg2 main_v70
  let main_c_26 : IVec S_ 32 := constantI S_ 32 50000#32
  let main_v72 : IVec S400000x2 32 := broadcastInDim S400000x2 ![] bcast_S_S400000x2 main_c_26
  let main_v73 : IVec S400000x2 1 := cmpi .slt main_arg2 main_v72
  let main_v74 : IVec S400000x2 1 := andi main_v71 main_v73
  let main_c_27 : IVec S_ 1 := constantI S_ 1 1#1
  let main_v75 : IVec S_ 1 := (fun x v => Host.reduce IntOp.andi x v reducesTo_S400000x2_S_d0_1 h_S_) main_v74 main_c_27
  let main_v76 : IVec S_ 1 := andi main_v69 main_v75
  main_v76

def fn_part3 {F : FTy → Type} [FloatOps F] (main_arg1 : IVec S2x800000 32) (main_arg2 : IVec S400000x2 32) (main_arg13 : FVec F S1 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : IVec S1x800000 32 := (extractStridedSlice S1x800000 ![0, 0] · slices_S2x800000_S1x800000_0_0) main_arg1
  let main_v60 : IVec S800000 32 := shapeCast S800000 main_v59 shapeCasts_S1x800000_S800000
  let main_c_22 : IVec S_ 32 := constantI S_ 32 0#32
  let main_v61 : IVec S800000 32 := broadcastInDim S800000 ![] bcast_S_S800000 main_c_22
  let main_v62 : IVec S800000 1 := cmpi .sge main_v60 main_v61
  let main_v63 : IVec S1x800000 32 := (extractStridedSlice S1x800000 ![0, 0] · slices_S2x800000_S1x800000_0_0) main_arg1
  let main_v64 : IVec S800000 32 := shapeCast S800000 main_v63 shapeCasts_S1x800000_S800000
  let main_c_23 : IVec S_ 32 := constantI S_ 32 50000#32
  let main_v65 : IVec S800000 32 := broadcastInDim S800000 ![] bcast_S_S800000 main_c_23
  let main_v66 : IVec S800000 1 := cmpi .slt main_v64 main_v65
  let main_v67 : IVec S800000 1 := andi main_v62 main_v66
  let main_c_24 : IVec S_ 1 := constantI S_ 1 1#1
  let main_v68 : IVec S_ 1 := (fun x v => Host.reduce IntOp.andi x v reducesTo_S800000_S_d0 h_S_) main_v67 main_c_24
  fn_part4 (F := F) main_arg2 main_v58 main_v68

def fn_part2 {F : FTy → Type} [FloatOps F] (main_arg1 : IVec S2x800000 32) (main_arg2 : IVec S400000x2 32) (main_arg9 : FVec F S64x64 .f32) (main_arg10 : FVec F S64x129 .f32) (main_arg11 : FVec F S64 .f32) (main_arg12 : FVec F S1x64 .f32) (main_arg13 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x129 .f32 := Host.absf main_arg10
  let main_cst_14 : FVec F S_ .f32 := constant S_ .f32 0x7F800000#32
  let main_v40 : FVec F S64x129 .f32 := broadcastInDim S64x129 ![] bcast_S_S64x129 main_cst_14
  let main_v41 : IVec S64x129 1 := cmpf .olt main_v39 main_v40
  let main_c_15 : IVec S_ 1 := constantI S_ 1 1#1
  let main_v42 : IVec S_ 1 := (fun x v => Host.reduce IntOp.andi x v reducesTo_S64x129_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1x64 .f32 := Host.absf main_arg12
  let main_cst_18 : FVec F S_ .f32 := constant S_ .f32 0x7F800000#32
  let main_v50 : FVec F S1x64 .f32 := broadcastInDim S1x64 ![] bcast_S_S1x64 main_cst_18
  fn_part3 (F := F) main_arg1 main_arg2 main_arg13 main_v48 main_v49 main_v50

def fn_part1 {F : FTy → Type} [FloatOps F] (main_arg1 : IVec S2x800000 32) (main_arg2 : IVec S400000x2 32) (main_arg6 : FVec F S64x128 .f32) (main_arg7 : FVec F S64x64 .f32) (main_arg8 : FVec F S64 .f32) (main_arg9 : FVec F S64x64 .f32) (main_arg10 : FVec F S64x129 .f32) (main_arg11 : FVec F S64 .f32) (main_arg12 : FVec F S1x64 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_arg9 main_arg10 main_arg11 main_arg12 main_arg13 main_v33

def fn {F : FTy → Type} [FloatOps F] (main_arg0 : FVec F S50000x128 .f32) (main_arg1 : IVec S2x800000 32) (main_arg2 : IVec S400000x2 32) (main_arg3 : FVec F S400000x1 .f32) (main_arg4 : FVec F S64x128 .f32) (main_arg5 : FVec F S64 .f32) (main_arg6 : FVec F S64x128 .f32) (main_arg7 : FVec F S64x64 .f32) (main_arg8 : FVec F S64 .f32) (main_arg9 : FVec F S64x64 .f32) (main_arg10 : FVec F S64x129 .f32) (main_arg11 : FVec F S64 .f32) (main_arg12 : FVec F S1x64 .f32) (main_arg13 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x1 .f32 := Host.absf main_arg3
  let main_cst_0 : FVec F S_ .f32 := constant S_ .f32 0x7F800000#32
  let main_v5 : FVec F S400000x1 .f32 := broadcastInDim S400000x1 ![] bcast_S_S400000x1 main_cst_0
  let main_v6 : IVec S400000x1 1 := cmpf .olt main_v4 main_v5
  let main_c_1 : IVec S_ 1 := constantI S_ 1 1#1
  let main_v7 : IVec S_ 1 := (fun x v => Host.reduce IntOp.andi x v reducesTo_S400000x1_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg2 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S400000x2 : Shape := ⟨2, ![400000, 2]⟩
abbrev S400000x1 : Shape := ⟨2, ![400000, 1]⟩
abbrev S64x128 : Shape := ⟨2, ![64, 128]⟩
abbrev S64 : Shape := ⟨1, ![64]⟩
abbrev S64x64 : Shape := ⟨2, ![64, 64]⟩
abbrev S64x129 : Shape := ⟨2, ![64, 129]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x1 : Shape := ⟨2, ![1, 1]⟩
abbrev S800000x128 : Shape := ⟨2, ![800000, 128]⟩
abbrev S50000 : Shape := ⟨1, ![50000]⟩
abbrev S50000x1 : Shape := ⟨2, ![50000, 1]⟩
abbrev S128x64 : Shape := ⟨2, ![128, 64]⟩
abbrev S50000x64 : Shape := ⟨2, ![50000, 64]⟩
abbrev S2000x128 : Shape := ⟨2, ![2000, 128]⟩
abbrev S2000x1 : Shape := ⟨2, ![2000, 1]⟩
abbrev S2000x64 : Shape := ⟨2, ![2000, 64]⟩
abbrev S800000x64 : Shape := ⟨2, ![800000, 64]⟩
abbrev S400000 : Shape := ⟨1, ![400000]⟩
abbrev S400000x64 : Shape := ⟨2, ![400000, 64]⟩
abbrev S64x1 : Shape := ⟨2, ![64, 1]⟩
abbrev S4000x64 : Shape := ⟨2, ![4000, 64]⟩
abbrev S4000x1 : Shape := ⟨2, ![4000, 1]⟩

abbrev nBuf : Space → Nat
  | .hbm => 155
  | .vmem => 36
  | .smem => 0
  | _ => 0

abbrev hbmTy0_0 (i : Nat) : BufTy := match i % 128 with
  | 0 => ⟨S50000x128, .f32⟩
  | 1 => ⟨S2x800000, .i32⟩
  | 2 => ⟨S400000x2, .i32⟩
  | 3 => ⟨S400000x1, .f32⟩
  | 4 => ⟨S64x128, .f32⟩
  | 5 => ⟨S64, .f32⟩
  | 6 => ⟨S64x128, .f32⟩
  | 7 => ⟨S64x64, .f32⟩
  | 8 => ⟨S64, .f32⟩
  | 9 => ⟨S64x64, .f32⟩
  | 10 => ⟨S64x129, .f32⟩
  | 11 => ⟨S64, .f32⟩
  | 12 => ⟨S1x64, .f32⟩
  | 13 => ⟨S1, .f32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S1, .i32⟩
  | 27 => ⟨S_, .i32⟩
  | 28 => ⟨S800000x1, .i32⟩
  | 29 => ⟨S800000x1, .i1⟩
  | 30 => ⟨S1x1, .i32⟩
  | 31 => ⟨S800000x1, .i32⟩
  | 32 => ⟨S800000x1, .i1⟩
  | 33 => ⟨S800000x1, .i1⟩
  | 34 => ⟨S_, .i1⟩
  | 35 => ⟨S800000, .i1⟩
  | 36 => ⟨S800000x128, .f32⟩
  | 37 => ⟨S800000x128, .i1⟩
  | 38 => ⟨S_, .f32⟩
  | 39 => ⟨S800000x128, .f32⟩
  | 40 => ⟨S800000x128, .f32⟩
  | 41 => ⟨S_, .f32⟩
  | 42 => ⟨S50000x128, .f32⟩
  | 43 => ⟨S800000x1, .i32⟩
  | 44 => ⟨S50000x128, .f32⟩
  | 45 => ⟨S_, .f32⟩
  | 46 => ⟨S800000, .f32⟩
  | 47 => ⟨S_, .f32⟩
  | 48 => ⟨S50000, .f32⟩
  | 49 => ⟨S800000x1, .i32⟩
  | 50 => ⟨S50000, .f32⟩
  | 51 => ⟨S50000x1, .f32⟩
  | 52 => ⟨S128x64, .f32⟩
  | 53 => ⟨S128x64, .f32⟩
  | 54 => ⟨S1x64, .f32⟩
  | 55 => ⟨S50000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S1, .i32⟩
  | 65 => ⟨S_, .i32⟩
  | 66 => ⟨S800000x1, .i32⟩
  | 67 => ⟨S800000x1, .i1⟩
  | 68 => ⟨S1x1, .i32⟩
  | 69 => ⟨S800000x1, .i32⟩
  | 70 => ⟨S800000x1, .i1⟩
  | 71 => ⟨S800000x1, .i1⟩
  | 72 => ⟨S_, .i1⟩
  | 73 => ⟨S800000, .i1⟩
  | 74 => ⟨S800000x64, .f32⟩
  | 75 => ⟨S800000x64, .i1⟩
  | 76 => ⟨S_, .f32⟩
  | 77 => ⟨S800000x64, .f32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S_, .f32⟩
  | 84 => ⟨S800000, .f32⟩
  | 85 => ⟨S_, .f32⟩
  | 86 => ⟨S50000, .f32⟩
  | 87 => ⟨S800000x1, .i32⟩
  | 88 => ⟨S50000, .f32⟩
  | 89 => ⟨S50000x1, .f32⟩
  | 90 => ⟨S64x64, .f32⟩
  | 91 => ⟨S64x64, .f32⟩
  | 92 => ⟨S1x64, .f32⟩
  | 93 => ⟨S50000x64, .f32⟩
  | 94 => ⟨S400000x1, .i32⟩
  | 95 => ⟨S400000, .i32⟩
  | 96 => ⟨S400000x1, .i32⟩
  | 97 => ⟨S400000, .i32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S1, .i32⟩
  | 107 => ⟨S_, .i32⟩
  | 108 => ⟨S400000x1, .i32⟩
  | 109 => ⟨S400000x1, .i1⟩
  | 110 => ⟨S1x1, .i32⟩
  | 111 => ⟨S400000x1, .i32⟩
  | 112 => ⟨S400000x1, .i1⟩
  | 113 => ⟨S400000x1, .i1⟩
  | 114 => ⟨S_, .i1⟩
  | 115 => ⟨S400000, .i1⟩
  | 116 => ⟨S400000x64, .f32⟩
  | 117 => ⟨S400000x64, .i1⟩
  | 118 => ⟨S_, .f32⟩
  | 119 => ⟨S400000x64, .f32⟩
  | 120 => ⟨S400000x64, .f32⟩
  | 121 => ⟨S_, .i32⟩
  | 122 => ⟨S400000, .i32⟩
  | 123 => ⟨S400000, .i1⟩
  | 124 => ⟨S_, .i32⟩
  | 125 => ⟨S400000, .i32⟩
  | 126 => ⟨S400000, .i32⟩
  | 127 => ⟨S400000, .i32⟩
  | _ => ⟨S50000x128, .f32⟩

abbrev hbmTy0_1 (i : Nat) : BufTy := match i % 128 with
  | 0 => ⟨S400000x1, .i32⟩
  | 1 => ⟨S1, .i32⟩
  | 2 => ⟨S_, .i32⟩
  | 3 => ⟨S400000x1, .i32⟩
  | 4 => ⟨S400000x1, .i1⟩
  | 5 => ⟨S1x1, .i32⟩
  | 6 => ⟨S400000x1, .i32⟩
  | 7 => ⟨S400000x1, .i1⟩
  | 8 => ⟨S400000x1, .i1⟩
  | 9 => ⟨S_, .i1⟩
  | 10 => ⟨S400000, .i1⟩
  | 11 => ⟨S400000x64, .f32⟩
  | 12 => ⟨S400000x64, .i1⟩
  | 13 => ⟨S_, .f32⟩
  | 14 => ⟨S400000x64, .f32⟩
  | 15 => ⟨S400000x64, .f32⟩
  | 16 => ⟨S64x64, .f32⟩
  | 17 => ⟨S64x64, .f32⟩
  | 18 => ⟨S64x64, .f32⟩
  | 19 => ⟨S64x64, .f32⟩
  | 20 => ⟨S64x1, .f32⟩
  | 21 => ⟨S1x64, .f32⟩
  | 22 => ⟨S64x1, .f32⟩
  | 23 => ⟨S1x64, .f32⟩
  | 24 => ⟨S1x1, .f32⟩
  | 25 => ⟨S400000x1, .f32⟩
  | 26 => ⟨S400000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x64, .f32⟩
  | .local _ .vmem, ⟨7, _⟩ => ⟨S128x64, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x1, .f32⟩
  | .local _ .vmem, ⟨14, _⟩ => ⟨S2000x1, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x1, .f32⟩
  | .local _ .vmem, ⟨27, _⟩ => ⟨S4000x1, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S1x64, .f32⟩
  | .local _ .vmem, ⟨32, _⟩ => ⟨S64x1, .f32⟩
  | .local _ .vmem, ⟨33, _⟩ => ⟨S1x1, .f32⟩
  | .local _ .vmem, ⟨34, _⟩ => ⟨S4000x1, .f32⟩
  | .local _ .vmem, ⟨35, _⟩ => ⟨S4000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_cst : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_0 : Ref sig .tc := ⟨.hbm, 45, rfl⟩
abbrev main_v8 : Ref sig .tc := ⟨.hbm, 46, rfl⟩
abbrev main_cst_1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_call1_c : Ref sig .tc := ⟨.hbm, 56, rfl⟩
abbrev main_call1_v0 : Ref sig .tc := ⟨.hbm, 57, rfl⟩
abbrev main_call1_v1 : Ref sig .tc := ⟨.hbm, 58, rfl⟩
abbrev main_call1_c_0 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_c_1 : Ref sig .tc := ⟨.hbm, 64, rfl⟩
abbrev main_call1_c_2 : Ref sig .tc := ⟨.hbm, 65, rfl⟩
abbrev main_call1_v6 : Ref sig .tc := ⟨.hbm, 66, rfl⟩
abbrev main_call1_v7 : Ref sig .tc := ⟨.hbm, 67, rfl⟩
abbrev main_call1_v8 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_c_3 : Ref sig .tc := ⟨.hbm, 72, rfl⟩
abbrev main_call1_v12 : Ref sig .tc := ⟨.hbm, 73, rfl⟩
abbrev main_call1_v13 : Ref sig .tc := ⟨.hbm, 74, rfl⟩
abbrev main_call1_v14 : Ref sig .tc := ⟨.hbm, 75, rfl⟩
abbrev main_call1_cst : Ref sig .tc := ⟨.hbm, 76, rfl⟩
abbrev main_call1_v15 : Ref sig .tc := ⟨.hbm, 77, rfl⟩
abbrev main_v17 : Ref sig .tc := ⟨.hbm, 78, rfl⟩
abbrev main_cst_2 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_cst_3 : Ref sig .tc := ⟨.hbm, 83, rfl⟩
abbrev main_v21 : Ref sig .tc := ⟨.hbm, 84, rfl⟩
abbrev main_cst_4 : Ref sig .tc := ⟨.hbm, 85, rfl⟩
abbrev main_v22 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v34 : Ref sig .tc := ⟨.hbm, 120, rfl⟩
abbrev main_call3_c : Ref sig .tc := ⟨.hbm, 121, rfl⟩
abbrev main_call3_v0 : Ref sig .tc := ⟨.hbm, 122, rfl⟩
abbrev main_call3_v1 : Ref sig .tc := ⟨.hbm, 123, rfl⟩
abbrev main_call3_c_0 : Ref sig .tc := ⟨.hbm, 124, rfl⟩
abbrev main_call3_v2 : Ref sig .tc := ⟨.hbm, 125, rfl⟩
abbrev main_call3_v3 : Ref sig .tc := ⟨.hbm, 126, rfl⟩
abbrev main_call3_v4 : Ref sig .tc := ⟨.hbm, 127, rfl⟩
abbrev main_call3_v5 : Ref sig .tc := ⟨.hbm, 128, rfl⟩
abbrev main_call3_c_1 : Ref sig .tc := ⟨.hbm, 129, rfl⟩
abbrev main_call3_c_2 : Ref sig .tc := ⟨.hbm, 130, rfl⟩
abbrev main_call3_v6 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_call3_v11 : Ref sig .tc := ⟨.hbm, 136, rfl⟩
abbrev main_call3_c_3 : Ref sig .tc := ⟨.hbm, 137, rfl⟩
abbrev main_call3_v12 : Ref sig .tc := ⟨.hbm, 138, rfl⟩
abbrev main_call3_v13 : Ref sig .tc := ⟨.hbm, 139, rfl⟩
abbrev main_call3_v14 : Ref sig .tc := ⟨.hbm, 140, rfl⟩
abbrev main_call3_cst : Ref sig .tc := ⟨.hbm, 141, rfl⟩
abbrev main_call3_v15 : Ref sig .tc := ⟨.hbm, 142, rfl⟩
abbrev main_v35 : Ref sig .tc := ⟨.hbm, 143, rfl⟩
abbrev main_v36 : Ref sig .tc := ⟨.hbm, 144, rfl⟩
abbrev main_v37 : Ref sig .tc := ⟨.hbm, 145, rfl⟩
abbrev main_v38 : Ref sig .tc := ⟨.hbm, 146, rfl⟩
abbrev main_v39 : Ref sig .tc := ⟨.hbm, 147, rfl⟩
abbrev main_v40 : Ref sig .tc := ⟨.hbm, 148, rfl⟩
abbrev main_v41 : Ref sig .tc := ⟨.hbm, 149, rfl⟩
abbrev main_v42 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  transposes_S64x128_S128x64_1_0 : S64x128.Transposes [1, 0] S128x64
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  transposes_S64x64_S64x64_1_0 : S64x64.Transposes [1, 0] S64x64
  shapeCasts_S2000x64_S2000x64 : S2000x64.ShapeCasts S2000x64
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x64_0 : S400000.BroadcastsInDim S400000x64 (![0] : Fin 1 → Fin S400000x64.rank)
  bcast_S_S400000x64 : S_.BroadcastsInDim S400000x64 (![] : Fin 0 → Fin S400000x64.rank)
  slices_S64x129_S64x64_0_0 : S64x129.Slices ![0, 0] S64x64
  slices_S64x129_S64x64_0_64 : S64x129.Slices ![0, 64] S64x64
  slices_S64x129_S64x1_0_128 : S64x129.Slices ![0, 128] S64x1
  transposes_S64x1_S1x64_1_0 : S64x1.Transposes [1, 0] S1x64
  transposes_S1x64_S64x1_1_0 : S1x64.Transposes [1, 0] S64x1
  shapeCasts_S1_S1x1 : S1.ShapeCasts S1x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  broadcasts_S1x64_S4000x64 : S1x64.Broadcasts S4000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  gather_S50000x64_S400000x1_S400000x64_1_0_n_n_0_1_164_wf : GatherDims.WF S50000x64 S400000x1 S400000x64 [1] [0] [] [0] [] 1 ![1, 64]
  dot_S4000x64_S64x64_S4000x64_1_0_0_1_n_n_wf : DotDims.WF S4000x64 S64x64 S4000x64 [1] [0] [0] [1] [] []
  dot_S4000x1_S1x64_S4000x64_1_0_0_1_n_n_wf : DotDims.WF S4000x1 S1x64 S4000x64 [1] [0] [0] [1] [] []
  dot_S4000x64_S64x1_S4000x1_1_0_0_1_n_n_wf : DotDims.WF S4000x64 S64x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S400000x64.size a
  hwx2_0 : ∀ i : grid2.Coords, EltTy.bits .f32 = 32 ∨ (Rect.block (s := S400000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S400000x64.size a
  hwx2_1 : ∀ i : grid2.Coords, EltTy.bits .f32 = 32 ∨ (Rect.block (s := S400000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S400000x1.size a
  hwx2_2 : ∀ i : grid2.Coords, EltTy.bits .f32 = 32 ∨ (Rect.block (s := S400000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x1.size a ≤ S400000x1.size a
  hwx2_9 : ∀ i : grid2.Coords, EltTy.bits .f32 = 32 ∨ (Rect.block (s := S400000x1) S4000x1.size (cc2_transform_9 i) (hinb2_9 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x1_S1x64_S4000x64_1_0_0_1_n_n : DotDims S4000x1 S1x64 S4000x64 where
  lhsContracting := [1]
  rhsContracting := [0]
  lhsNonContracting := [0]
  rhsNonContracting := [1]
  lhsBatch := []
  rhsBatch := []
  wf := dot_S4000x1_S1x64_S4000x64_1_0_0_1_n_n_wf
def dot_S4000x64_S64x1_S4000x1_1_0_0_1_n_n : DotDims S4000x64 S64x1 S4000x1 where
  lhsContracting := [1]
  rhsContracting := [0]
  lhsNonContracting := [0]
  rhsNonContracting := [1]
  lhsBatch := []
  rhsBatch := []
  wf := dot_S4000x64_S64x1_S4000x1_1_0_0_1_n_n_wf

abbrev win0_0 : Pipeline.Window sig grid0 :=
  Pipeline.Window.ofSpec (Memref.whole main_v7) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v34) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S64x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v45) S4000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S400000x2 : Shape := ⟨2, ![400000, 2]⟩
abbrev S400000x1 : Shape := ⟨2, ![400000, 1]⟩
abbrev S64x128 : Shape := ⟨2, ![64, 128]⟩
abbrev S64 : Shape := ⟨1, ![64]⟩
abbrev S64x64 : Shape := ⟨2, ![64, 64]⟩
abbrev S64x129 : Shape := ⟨2, ![64, 129]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x64 : Shape := ⟨2, ![128, 64]⟩
abbrev S50000x64 : Shape := ⟨2, ![50000, 64]⟩
abbrev S800000x64 : Shape := ⟨2, ![800000, 64]⟩
abbrev S400000 : Shape := ⟨1, ![400000]⟩
abbrev S400000x64 : Shape := ⟨2, ![400000, 64]⟩
abbrev S400000x129 : Shape := ⟨2, ![400000, 129]⟩
abbrev S129x64 : Shape := ⟨2, ![129, 64]⟩
abbrev S64x1 : Shape := ⟨2, ![64, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S400000x2, .i32⟩
  | .hbm, ⟨3, _⟩ => ⟨S400000x1, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x129, .f32⟩
  | .hbm, ⟨11, _⟩ => ⟨S64, .f32⟩
  | .hbm, ⟨12, _⟩ => ⟨S1x64, .f32⟩
  | .hbm, ⟨13, _⟩ => ⟨S1, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S128x64, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S128x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S50000x64, .f32⟩
  | .hbm, ⟨53, _⟩ => ⟨S50000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S_, .f32⟩
  | .hbm, ⟨64, _⟩ => ⟨S50000x64, .f32⟩
  | .hbm, ⟨65, _⟩ => ⟨S800000x1, .i32⟩
  | .hbm, ⟨66, _⟩ => ⟨S50000x64, .f32⟩
  | .hbm, ⟨67, _⟩ => ⟨S_, .f32⟩
  | .hbm, ⟨68, _⟩ => ⟨S800000, .f32⟩
  | .hbm, ⟨69, _⟩ => ⟨S_, .f32⟩
  | .hbm, ⟨70, _⟩ => ⟨S50000, .f32⟩
  | .hbm, ⟨71, _⟩ => ⟨S800000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x64, .f32⟩
  | .hbm, ⟨78, _⟩ => ⟨S50000x64, .f32⟩
  | .hbm, ⟨79, _⟩ => ⟨S64x64, .f32⟩
  | .hbm, ⟨80, _⟩ => ⟨S50000x64, .f32⟩
  | .hbm, ⟨81, _⟩ => ⟨S1x64, .f32⟩
  | .hbm, ⟨82, _⟩ => ⟨S50000x64, .f32⟩
  | .hbm, ⟨83, _⟩ => ⟨S50000x64, .f32⟩
  | .hbm, ⟨84, _⟩ => ⟨S64x64, .f32⟩
  | .hbm, ⟨85, _⟩ => ⟨S50000x64, .f32⟩
  | .hbm, ⟨86, _⟩ => ⟨S50000x64, .f32⟩
  | .hbm, ⟨87, _⟩ => ⟨S_, .f32⟩
  | .hbm, ⟨88, _⟩ => ⟨S50000x64, .f32⟩
  | .hbm, ⟨89, _⟩ => ⟨S50000x64, .f32⟩
  | .hbm, ⟨90, _⟩ => ⟨S400000x1, .i32⟩
  | .hbm, ⟨91, _⟩ => ⟨S400000, .i32⟩
  | .hbm, ⟨92, _⟩ => ⟨S400000x1, .i32⟩
  | .hbm, ⟨93, _⟩ => ⟨S400000, .i32⟩
  | .hbm, ⟨94, _⟩ => ⟨S_, .i32⟩
  | .hbm, ⟨95, _⟩ => ⟨S400000, .i32⟩
  | .hbm, ⟨96, _⟩ => ⟨S400000, .i1⟩
  | .hbm, ⟨97, _⟩ => ⟨S_, .i32⟩
  | .hbm, ⟨98, _⟩ => ⟨S400000, .i32⟩
  | .hbm, ⟨99, _⟩ => ⟨S400000, .i32⟩
  | .hbm, ⟨100, _⟩ => ⟨S400000, .i32⟩
  | .hbm, ⟨101, _⟩ => ⟨S400000x1, .i32⟩
  | .hbm, ⟨102, _⟩ => ⟨S400000x64, .f32⟩
  | .hbm, ⟨103, _⟩ => ⟨S_, .i32⟩
  | .hbm, ⟨104, _⟩ => ⟨S400000, .i32⟩
  | .hbm, ⟨105, _⟩ => ⟨S400000, .i1⟩
  | .hbm, ⟨106, _⟩ => ⟨S_, .i32⟩
  | .hbm, ⟨107, _⟩ => ⟨S400000, .i32⟩
  | .hbm, ⟨108, _⟩ => ⟨S400000, .i32⟩
  | .hbm, ⟨109, _⟩ => ⟨S400000, .i32⟩
  | .hbm, ⟨110, _⟩ => ⟨S400000x1, .i32⟩
  | .hbm, ⟨111, _⟩ => ⟨S400000x64, .f32⟩
  | .hbm, ⟨112, _⟩ => ⟨S400000x129, .f32⟩
  | .hbm, ⟨113, _⟩ => ⟨S129x64, .f32⟩
  | .hbm, ⟨114, _⟩ => ⟨S400000x64, .f32⟩
  | .hbm, ⟨115, _⟩ => ⟨S1x64, .f32⟩
  | .hbm, ⟨116, _⟩ => ⟨S400000x64, .f32⟩
  | .hbm, ⟨117, _⟩ => ⟨S400000x64, .f32⟩
  | .hbm, ⟨118, _⟩ => ⟨S_, .f32⟩
  | .hbm, ⟨119, _⟩ => ⟨S400000x64, .f32⟩
  | .hbm, ⟨120, _⟩ => ⟨S400000x64, .f32⟩
  | .hbm, ⟨121, _⟩ => ⟨S64x1, .f32⟩
  | .hbm, ⟨122, _⟩ => ⟨S400000x1, .f32⟩
  | .hbm, ⟨123, _⟩ => ⟨S1x1, .f32⟩
  | .hbm, ⟨124, _⟩ => ⟨S400000x1, .f32⟩
  | .hbm, ⟨125, _⟩ => ⟨S400000x1, .f32⟩
  | .hbm, ⟨126, _⟩ => ⟨S400000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_10 : Ref sig .tc := ⟨.hbm, 94, rfl⟩
abbrev main_v64 : Ref sig .tc := ⟨.hbm, 95, rfl⟩
abbrev main_v65 : Ref sig .tc := ⟨.hbm, 96, rfl⟩
abbrev main_c_11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_12 : Ref sig .tc := ⟨.hbm, 103, rfl⟩
abbrev main_v71 : Ref sig .tc := ⟨.hbm, 104, rfl⟩
abbrev main_v72 : Ref sig .tc := ⟨.hbm, 105, rfl⟩
abbrev main_c_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call2_cst : Ref sig .tc := ⟨.hbm, 118, rfl⟩
abbrev main_call2_v0 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S64x64_S64x64_1_0 : S64x64.Transposes [1, 0] S64x64
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x64_S400000x1_S400000x129_d1 : Shape.Concatenates [S400000x64, S400000x64, S400000x1] S400000x129 1
  transposes_S64x129_S129x64_1_0 : S64x129.Transposes [1, 0] S129x64
  bcast_S1x64_S400000x64_0_1 : S1x64.BroadcastsInDim S400000x64 (![0, 1] : Fin 2 → Fin S400000x64.rank)
  bcast_S_S400000x64 : S_.BroadcastsInDim S400000x64 (![] : Fin 0 → Fin S400000x64.rank)
  transposes_S1x64_S64x1_1_0 : S1x64.Transposes [1, 0] S64x1
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  gather_S50000x64_S400000x1_S400000x64_1_0_n_n_0_1_164_wf : GatherDims.WF S50000x64 S400000x1 S400000x64 [1] [0] [] [0] [] 1 ![1, 64]
  dot_S400000x129_S129x64_S400000x64_1_0_0_1_n_n_wf : DotDims.WF S400000x129 S129x64 S400000x64 [1] [0] [0] [1] [] []
  dot_S400000x64_S64x1_S400000x1_1_0_0_1_n_n_wf : DotDims.WF S400000x64 S64x1 S400000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S400000x129_S129x64_S400000x64_1_0_0_1_n_n : DotDims S400000x129 S129x64 S400000x64 where
  lhsContracting := [1]
  rhsContracting := [0]
  lhsNonContracting := [0]
  rhsNonContracting := [1]
  lhsBatch := []
  rhsBatch := []
  wf := dot_S400000x129_S129x64_S400000x64_1_0_0_1_n_n_wf
def dot_S400000x64_S64x1_S400000x1_1_0_0_1_n_n : DotDims S400000x64 S64x1 S400000x1 where
  lhsContracting := [1]
  rhsContracting := [0]
  lhsNonContracting := [0]
  rhsNonContracting := [1]
  lhsBatch := []
  rhsBatch := []
  wf := dot_S400000x64_S64x1_S400000x1_1_0_0_1_n_n_wf

class Facts : Prop extends Facts₀ where

variable [Facts]
-- ==== Proof.LibTakeFill.lean ====
/-
  A row take that fills out-of-range rows, when no row is out of range.

  `jnp.take(table, idx, axis=0)` in its default mode first adds the table's height to a negative row number, then gathers the
  rows, and finally replaces every row whose (shifted) number is outside [0, height − 1] by a fill value: it prints as a gather, a
  row mask (the conjunction of two comparisons of the shifted number, reduced over the index column of extent 1, broadcast
  along the row) and a select. When every row number lies in [0, 50000) for a table of 50000 rows, the shift changes nothing,
  both comparisons hold at every row, the mask is all ones and the select answers the gather.
-/
import Idealize.ShloMosaic.PureOps
import Idealize.ShloMosaic.PureOps.Reduce
import Idealize.ShloMosaic.Lib.ValueIdx
import Idealize.ShloMosaic.Lib.Pipeline.Value
import Idealize.ShloMosaic.Lib.Affine
import Idealize.ShloMosaic.Lib.ReduceAll
import Idealize.ShloMosaic.Lib.StableHlo.Predicate

noncomputable section

namespace Cert.LibTakeFill

open Idealize.ShloMosaic Idealize.ShloMosaic.ValueIdx

/-- The row numbers of a take after the shift of the negative ones by the table's 50000 rows, as the programs print it. -/
abbrev shifted {n : Nat} (hb0 : (⟨0, ![]⟩ : Shape).BroadcastsInDim ⟨1, ![n]⟩ ![]) (I : IVec ⟨1, ![n]⟩ 32) : IVec ⟨1, ![n]⟩ 32 :=
  select (cmpi .slt I (broadcastInDim ⟨1, ![n]⟩ ![] hb0 (constantI ⟨0, ![]⟩ 32 0#32)))
    (addi I (broadcastInDim ⟨1, ![n]⟩ ![] hb0 (constantI ⟨0, ![]⟩ 32 50000#32))) I

/-- A word in [0, 50000) is not shifted. -/
theorem shifted_apply {n : Nat} (hb0 : (⟨0, ![]⟩ : Shape).BroadcastsInDim ⟨1, ![n]⟩ ![]) (I : IVec ⟨1, ![n]⟩ 32) (e : Fin n)
    (hI : 0 ≤ (I (ix1 e)).toInt ∧ (I (ix1 e)).toInt < 50000) : shifted hb0 I (ix1 e) = I (ix1 e) := by
  have h0 : (0#32 : BitVec 32).toInt = 0 := by decide
  -- the word is not negative, so the test "below zero" answers the bit 0 and the select keeps the word
  have hc : IntOp.cmpi .slt (I (ix1 e)) 0#32 = 0#1 :=
    eq_zero_of_ne_one (fun hc => by rw [IntOp.cmpi_slt, h0] at hc; omega)
  show Scalar.select (IntOp.cmpi .slt (I (ix1 e)) 0#32) _ (I (ix1 e)) = I (ix1 e)
  rw [hc]
  exact select_zero _ _

/-- When every row number is in [0, 50000) the shifted vector is the vector, at every index. -/
theorem shifted_idx {n : Nat} (hb0 : (⟨0, ![]⟩ : Shape).BroadcastsInDim ⟨1, ![n]⟩ ![]) (I : IVec ⟨1, ![n]⟩ 32)
    (hI : ∀ e : Fin n, 0 ≤ (I (ix1 e)).toInt ∧ (I (ix1 e)).toInt < 50000) (k : (⟨1, ![n]⟩ : Shape).Idx) :
    shifted hb0 I k = I (ix1 (k 0)) := by
  obtain ⟨r, rfl⟩ : ∃ r, k = ix1 r := ⟨_, eq_ix1 k⟩
  exact shifted_apply hb0 I r (hI r)

/-- A left fold by `and` from the bit 1 over a list whose every entry is the bit 1 is the bit 1. -/
theorem foldl_andi_ones {ι : Type} (f : ι → BitVec 1) :
    ∀ l : List ι, (∀ a ∈ l, f a = 1#1) → l.foldl (fun r a => IntOp.andi r (f a)) 1#1 = 1#1
  | [], _ => rfl
  | a :: l, h => by
    have ha : IntOp.andi 1#1 (f a) = 1#1 := by rw [h a (by simp)]; rfl
    rw [List.foldl_cons, ha]
    exact foldl_andi_ones f l (fun b hb => h b (List.mem_cons_of_mem _ hb))

/-- An and-reduction from the bit 1 of an array whose every entry is the bit 1 is the bit 1 at every result index
    (the converse of reading a conjunction back: here the conjuncts are known and the conjunction is concluded). -/
theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl, hinit]
  exact foldl_andi_ones x _ (fun a _ => hx a)

/-- A broadcast of an array of bits that are all 1 reads 1 everywhere. -/
theorem bcast_ones {s t : Shape} (dims : Fin s.rank → Fin t.rank) (h : s.BroadcastsInDim t dims) (R : s.Idx → BitVec 1)
    (hR : ∀ k, R k = 1#1) (j : t.Idx) : broadcastInDim t dims h R j = 1#1 := hR _

/-- The two comparisons of the take's mask hold at every row: the column of shifted row numbers is the column of the
    row numbers themselves, each at least 0 and at most 49999. -/
theorem mask_ones {n : Nat} (hb0 : (⟨0, ![]⟩ : Shape).BroadcastsInDim ⟨1, ![n]⟩ ![])
    (hb5 : (⟨1, ![n]⟩ : Shape).BroadcastsInDim ⟨2, ![n, 1]⟩ ![0])
    (hb6 : (⟨0, ![]⟩ : Shape).BroadcastsInDim ⟨2, ![n, 1]⟩ ![])
    (hb8 : (⟨1, ![1]⟩ : Shape).BroadcastsInDim ⟨2, ![1, 1]⟩ ![1])
    (hb9 : (⟨2, ![1, 1]⟩ : Shape).BroadcastsInDim ⟨2, ![n, 1]⟩ ![0, 1])
    (I : IVec ⟨1, ![n]⟩ 32) (hI : ∀ e : Fin n, 0 ≤ (I (ix1 e)).toInt ∧ (I (ix1 e)).toInt < 50000)
    (i : (⟨2, ![n, 1]⟩ : Shape).Idx) :
    andi (cmpi .sge (broadcastInDim ⟨2, ![n, 1]⟩ ![0] hb5 (shifted hb0 I))
            (broadcastInDim ⟨2, ![n, 1]⟩ ![] hb6 (constantI ⟨0, ![]⟩ 32 0#32)))
          (cmpi .sle (broadcastInDim ⟨2, ![n, 1]⟩ ![0] hb5 (shifted hb0 I))
            (broadcastInDim ⟨2, ![n, 1]⟩ ![0, 1] hb9 (broadcastInDim ⟨2, ![1, 1]⟩ ![1] hb8 (constantI ⟨1, ![1]⟩ 32 49999#32)))) i
      = 1#1 := by
  have h0 : (0#32 : BitVec 32).toInt = 0 := by decide
  have h1 : (49999#32 : BitVec 32).toInt = 49999 := by decide
  -- the column's entry at this row is one of the row numbers
  obtain ⟨e, he⟩ : ∃ e : Fin n, broadcastInDim ⟨2, ![n, 1]⟩ ![0] hb5 (shifted hb0 I) i = I (ix1 e) :=
    ⟨_, shifted_idx hb0 I hI _⟩
  -- both constants read their word at every index
  show IntOp.andi (IntOp.cmpi .sge (broadcastInDim ⟨2, ![n, 1]⟩ ![0] hb5 (shifted hb0 I) i) 0#32)
      (IntOp.cmpi .sle (broadcastInDim ⟨2, ![n, 1]⟩ ![0] hb5 (shifted hb0 I) i) 49999#32) = 1#1
  rw [he, IntOp.andi_eq_one, IntOp.cmpi_sge, IntOp.cmpi_sle, h0, h1]
  have := hI e
  omega

/-- THE FILLING TAKE IS THE GATHER when every row number is in [0, 50000): the printed chain of a default-mode
    `jnp.take` along axis 0 of a table of 50000 rows (gather; mask = reduce-and over the index column of
    (shifted ≥ 0) and (shifted ≤ 49999), broadcast along the row; select against the fill) answers the gather. -/
theorem takeFill_eq_gather {α : Type} {N D n : Nat} (d : GatherDims ⟨2, ![N, D]⟩ ⟨2, ![n, 1]⟩ ⟨2, ![n, D]⟩)
    (hb0 : (⟨0, ![]⟩ : Shape).BroadcastsInDim ⟨1, ![n]⟩ ![])
    (hb5 : (⟨1, ![n]⟩ : Shape).BroadcastsInDim ⟨2, ![n, 1]⟩ ![0])
    (hb6 : (⟨0, ![]⟩ : Shape).BroadcastsInDim ⟨2, ![n, 1]⟩ ![])
    (hb8 : (⟨1, ![1]⟩ : Shape).BroadcastsInDim ⟨2, ![1, 1]⟩ ![1])
    (hb9 : (⟨2, ![1, 1]⟩ : Shape).BroadcastsInDim ⟨2, ![n, 1]⟩ ![0, 1])
    (hred : (⟨2, ![n, 1]⟩ : Shape).ReducesTo [1] ⟨1, ![n]⟩) (hu : 0 < (⟨0, ![]⟩ : Shape).numel)
    (hb14 : (⟨1, ![n]⟩ : Shape).BroadcastsInDim ⟨2, ![n, D]⟩ ![0])
    (x : (⟨2, ![N, D]⟩ : Shape).Idx → α) (fill : (⟨2, ![n, D]⟩ : Shape).Idx → α) (I : IVec ⟨1, ![n]⟩ 32)
    (hI : ∀ e : Fin n, 0 ≤ (I (ix1 e)).toInt ∧ (I (ix1 e)).toInt < 50000) :
    select (broadcastInDim ⟨2, ![n, D]⟩ ![0] hb14
        (Host.reduce IntOp.andi
          (andi (cmpi .sge (broadcastInDim ⟨2, ![n, 1]⟩ ![0] hb5 (shifted hb0 I))
                  (broadcastInDim ⟨2, ![n, 1]⟩ ![] hb6 (constantI ⟨0, ![]⟩ 32 0#32)))
                (cmpi .sle (broadcastInDim ⟨2, ![n, 1]⟩ ![0] hb5 (shifted hb0 I))
                  (broadcastInDim ⟨2, ![n, 1]⟩ ![0, 1] hb9 (broadcastInDim ⟨2, ![1, 1]⟩ ![1] hb8 (constantI ⟨1, ![1]⟩ 32 49999#32)))))
          (constantI ⟨0, ![]⟩ 1 1#1) hred hu))
      (Host.gather d x (broadcastInDim ⟨2, ![n, 1]⟩ ![0] hb5 (shifted hb0 I))) fill
    = Host.gather d x (broadcastInDim ⟨2, ![n, 1]⟩ ![0] hb5 (shifted hb0 I)) := by
  funext j
  -- the mask's entry is the bit 1: it is a broadcast of an and-reduction, from 1, of comparisons that all hold
  rw [select_apply,
    bcast_ones ![0] hb14 _ (reduce_andi_ones _ (constantI ⟨0, ![]⟩ 1 1#1) hred hu (mask_ones hb0 hb5 hb6 hb8 hb9 I hI) (fun _ => rfl)) j]
  exact select_one _ _

end Cert.LibTakeFill

end
-- ==== Proof.KernelHost.lean ====
/-
  The host operations of the kernel program between its regions, read as values.

  Before each region the program gathers node rows (a take that fills out-of-range rows), sums them into their
  destination nodes, counts the edges per destination, transposes weights and reshapes biases. Each stretch is read from ANY
  contents `F` it starts from: what it leaves at every buffer a region stages, as the operations' term of what `F` holds.
-/
import proofs.«420615_j64235530879430_2_alg».proof.Proof.Gen.KernelIdeal.Frame
import proofs.«420615_j64235530879430_2_alg».proof.Proof.LibTakeFill
import Idealize.ShloMosaic.Lib.StableHlo.Run
import Idealize.ShloMosaic.PureOps.Ideal

set_option maxRecDepth 16384

noncomputable section

namespace Cert.KernelIdeal.HostRead

open Cert.KernelIdeal Cert.KernelIdeal.Gen Idealize.ShloMosaic Idealize.ShloMosaic.TcCoe Idealize.SL.Sem Idealize.ShloMosaic.StableHlo
open Idealize.ShloMosaic.ValueIdx

/-- A valuation of the TensorCore's buffers at the extended reals. -/
abbrev Val := Valuation τ sig (Elt Ideal)

/-- The filling take as the program prints it: the gather of the shifted row numbers, selected against the fill by the
    row mask "shifted number in [0, 49999]". -/
abbrev takeFill {N D n : Nat} (d : GatherDims ⟨2, ![N, D]⟩ ⟨2, ![n, 1]⟩ ⟨2, ![n, D]⟩)
    (hb0 : (⟨0, ![]⟩ : Shape).BroadcastsInDim ⟨1, ![n]⟩ ![])
    (hb5 : (⟨1, ![n]⟩ : Shape).BroadcastsInDim ⟨2, ![n, 1]⟩ ![0])
    (hb6 : (⟨0, ![]⟩ : Shape).BroadcastsInDim ⟨2, ![n, 1]⟩ ![])
    (hb8 : (⟨1, ![1]⟩ : Shape).BroadcastsInDim ⟨2, ![1, 1]⟩ ![1])
    (hb9 : (⟨2, ![1, 1]⟩ : Shape).BroadcastsInDim ⟨2, ![n, 1]⟩ ![0, 1])
    (hred : (⟨2, ![n, 1]⟩ : Shape).ReducesTo [1] ⟨1, ![n]⟩) (hu : 0 < (⟨0, ![]⟩ : Shape).numel)
    (hb14 : (⟨1, ![n]⟩ : Shape).BroadcastsInDim ⟨2, ![n, D]⟩ ![0])
    (hb15 : (⟨0, ![]⟩ : Shape).BroadcastsInDim ⟨2, ![n, D]⟩ ![])
    (x : FVec Ideal ⟨2, ![N, D]⟩ .f32) (I : IVec ⟨1, ![n]⟩ 32) : FVec Ideal ⟨2, ![n, D]⟩ .f32 :=
  select (broadcastInDim ⟨2, ![n, D]⟩ ![0] hb14
        (Host.reduce IntOp.andi
          (andi (cmpi .sge (broadcastInDim ⟨2, ![n, 1]⟩ ![0] hb5 (Cert.LibTakeFill.shifted hb0 I))
                  (broadcastInDim ⟨2, ![n, 1]⟩ ![] hb6 (constantI ⟨0, ![]⟩ 32 0#32)))
                (cmpi .sle (broadcastInDim ⟨2, ![n, 1]⟩ ![0] hb5 (Cert.LibTakeFill.shifted hb0 I))
                  (broadcastInDim ⟨2, ![n, 1]⟩ ![0, 1] hb9 (broadcastInDim ⟨2, ![1, 1]⟩ ![1] hb8 (constantI ⟨1, ![1]⟩ 32 49999#32)))))
          (constantI ⟨0, ![]⟩ 1 1#1) hred hu))
      (Host.gather d x (broadcastInDim ⟨2, ![n, 1]⟩ ![0] hb5 (Cert.LibTakeFill.shifted hb0 I)))
      (broadcastInDim ⟨2, ![n, D]⟩ ![] hb15 (constant (F := Ideal) ⟨0, ![]⟩ .f32 0x7FC00000#32))

/-- Row 0 of the edge list: the source node numbers. -/
abbrev srcOf (e : IVec S2x800000 32) : IVec S800000 32 :=
  shapeCast S800000 (extractStridedSlice S1x800000 ![0, 0] e slices_S2x800000_S1x800000_0_0) shapeCasts_S1x800000_S800000
/-- Row 1 of the edge list: the destination node numbers. -/
abbrev dstOf (e : IVec S2x800000 32) : IVec S800000 32 :=
  shapeCast S800000 (extractStridedSlice S1x800000 ![1, 0] e slices_S2x800000_S1x800000_1_0) shapeCasts_S1x800000_S800000

-- the reads below compare operation trees: the gathers, sums and reductions stay closed
attribute [local irreducible] Host.reduce Host.gather Host.scatterAdd

/-- Contents moved to a typed reference's buffer and back are the contents. -/
theorem ofBuf_toBuf {T : BufTy} (x : StableHlo.TRef sig T) (v : T.Contents (Elt Ideal)) : x.ofBuf (x.toBuf v) = v := by
  obtain ⟨r, h, h2, h3⟩ := x
  subst h
  rfl

/-- Column 0 of the query pairs: the first endpoints. -/
abbrev uOf (q : IVec S400000x2 32) : IVec S400000 32 :=
  shapeCast S400000 (extractStridedSlice S400000x1 ![0, 0] q slices_S400000x2_S400000x1_0_0) shapeCasts_S400000x1_S400000
/-- Column 1 of the query pairs: the second endpoints. -/
abbrev vOf (q : IVec S400000x2 32) : IVec S400000 32 :=
  shapeCast S400000 (extractStridedSlice S400000x1 ![0, 1] q slices_S400000x2_S400000x1_0_1) shapeCasts_S400000x1_S400000

/-- The program's fourteen arguments: no stretch writes one. -/
abbrev argRefs : List (Ref sig .tc) := [main_arg0, main_arg1, main_arg2, main_arg3, main_arg4, main_arg5, main_arg6, main_arg7, main_arg8, main_arg9, main_arg10, main_arg11, main_arg12, main_arg13]

/-- A take's stretch read at its result: the operations' results composed, the moves between a value's type and its
    buffer's type cancelled pairwise, and what is left is the filling take of the table and the row numbers. -/
macro "take_read" : tactic =>
  `(tactic| (after_results_simp
             simp only [ofBuf_toBuf]
             refine eq_of_heq ((cast_heq _ _).trans (heq_of_eq ?_))
             rfl))

/-- A buffer of the list that the stretch does not write keeps its contents, case by case. -/
macro "kept" : tactic =>
  `(tactic| (intro r hr
             fin_cases hr <;> after_results_simp))

/-! ## The stretches, each from any contents `F`: what each leaves at the buffers read later -/

/-- Leading stretch: the two rows of the edge list. -/
theorem s0_v1 (F : Val) : StableHlo.after hostOps0 F (Proc.devRef .tc main_v1) = srcOf (F (Proc.devRef .tc main_arg1)) := by
  after_results_simp
  rfl
theorem s0_v3 (F : Val) : StableHlo.after hostOps0 F (Proc.devRef .tc main_v3) = dstOf (F (Proc.devRef .tc main_arg1)) := by
  after_results_simp
  rfl
theorem s0_args (F : Val) : ∀ r ∈ argRefs, StableHlo.after hostOps0 F (Proc.devRef .tc r) = F (Proc.devRef .tc r) := by
  kept

/-- The first take: rows of the node features at the source numbers. -/
theorem s01_v4 (F : Val) : StableHlo.after hostOps0_1 F (Proc.devRef .tc main_v4)
    = takeFill gather_S50000x128_S800000x1_S800000x128_1_0_n_n_0_1_1128 bcast_S_S800000 bcast_S800000_S800000x1_0
        bcast_S_S800000x1 bcast_S1_S1x1_1 bcast_S1x1_S800000x1_0_1 reducesTo_S800000x1_S800000_d1 h_S_
        bcast_S800000_S800000x128_0 bcast_S_S800000x128 (F (Proc.devRef .tc main_arg0)) (F (Proc.devRef .tc main_v1)) := by
  take_read
theorem s01_args (F : Val) : ∀ r ∈ argRefs, StableHlo.after hostOps0_1 F (Proc.devRef .tc r) = F (Proc.devRef .tc r) := by
  kept
theorem s01_keep (F : Val) : ∀ r ∈ ([main_v1, main_v3] : List (Ref sig .tc)),
    StableHlo.after hostOps0_1 F (Proc.devRef .tc r) = F (Proc.devRef .tc r) := by
  kept

/-- Before region 0: the summed neighbour features, the neighbour counts as a column, the transposed weights, the bias row. -/
theorem s02_v7 (F : Val) : StableHlo.after hostOps0_2 F (Proc.devRef .tc main_v7)
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (F (Proc.devRef .tc main_v3))) (F (Proc.devRef .tc main_v4)) := by
  after_results_simp
theorem s02_v12 (F : Val) : StableHlo.after hostOps0_2 F (Proc.devRef .tc main_v12)
    = broadcastInDim S50000x1 ![0] bcast_S50000_S50000x1_0
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 (F (Proc.devRef .tc main_v3)))
          (broadcastInDim S800000 ![] bcast_S_S800000 (constant (F := Ideal) S_ .f32 0x3F800000#32))) := by
  after_results_simp
theorem s02_v13 (F : Val) : StableHlo.after hostOps0_2 F (Proc.devRef .tc main_v13)
    = transpose S128x64 [1, 0] (F (Proc.devRef .tc main_arg4)) transposes_S64x128_S128x64_1_0 := by
  after_results_simp
theorem s02_v14 (F : Val) : StableHlo.after hostOps0_2 F (Proc.devRef .tc main_v14)
    = transpose S128x64 [1, 0] (F (Proc.devRef .tc main_arg6)) transposes_S64x128_S128x64_1_0 := by
  after_results_simp
theorem s02_v15 (F : Val) : StableHlo.after hostOps0_2 F (Proc.devRef .tc main_v15)
    = shapeCast S1x64 (F (Proc.devRef .tc main_arg5)) shapeCasts_S64_S1x64 := by
  after_results_simp
  rfl
theorem s02_args (F : Val) : ∀ r ∈ argRefs, StableHlo.after hostOps0_2 F (Proc.devRef .tc r) = F (Proc.devRef .tc r) := by
  kept
theorem s02_keep (F : Val) : ∀ r ∈ ([main_v1, main_v3] : List (Ref sig .tc)),
    StableHlo.after hostOps0_2 F (Proc.devRef .tc r) = F (Proc.devRef .tc r) := by
  kept

/-- The second take: rows of the first hidden array at the source numbers. -/
theorem s1_v17 (F : Val) : StableHlo.after hostOps1 F (Proc.devRef .tc main_v17)
    = takeFill gather_S50000x64_S800000x1_S800000x64_1_0_n_n_0_1_164 bcast_S_S800000 bcast_S800000_S800000x1_0
        bcast_S_S800000x1 bcast_S1_S1x1_1 bcast_S1x1_S800000x1_0_1 reducesTo_S800000x1_S800000_d1 h_S_
        bcast_S800000_S800000x64_0 bcast_S_S800000x64 (F (Proc.devRef .tc main_v16)) (F (Proc.devRef .tc main_v1)) := by
  take_read
theorem s1_args (F : Val) : ∀ r ∈ argRefs, StableHlo.after hostOps1 F (Proc.devRef .tc r) = F (Proc.devRef .tc r) := by
  kept
theorem s1_keep (F : Val) : ∀ r ∈ ([main_v3, main_v16] : List (Ref sig .tc)),
    StableHlo.after hostOps1 F (Proc.devRef .tc r) = F (Proc.devRef .tc r) := by
  kept

/-- Before region 1: the same sums over the first hidden array, its transposed weights and bias row. -/
theorem s11_v20 (F : Val) : StableHlo.after hostOps1_1 F (Proc.devRef .tc main_v20)
    = Host.scatterAdd scatter_S50000x64_S800000x1_S800000x64_1_0_0_1
        (broadcastInDim S50000x64 ![] bcast_S_S50000x64 (constant (F := Ideal) S_ .f32 0x00000000#32))
        (broadcastInDim S800000x1 ![0] bcast_S800000_S800000x1_0 (F (Proc.devRef .tc main_v3))) (F (Proc.devRef .tc main_v17)) := by
  after_results_simp
theorem s11_v25 (F : Val) : StableHlo.after hostOps1_1 F (Proc.devRef .tc main_v25)
    = broadcastInDim S50000x1 ![0] bcast_S50000_S50000x1_0
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 (F (Proc.devRef .tc main_v3)))
          (broadcastInDim S800000 ![] bcast_S_S800000 (constant (F := Ideal) S_ .f32 0x3F800000#32))) := by
  after_results_simp
theorem s11_v26 (F : Val) : StableHlo.after hostOps1_1 F (Proc.devRef .tc main_v26)
    = transpose S64x64 [1, 0] (F (Proc.devRef .tc main_arg7)) transposes_S64x64_S64x64_1_0 := by
  after_results_simp
theorem s11_v27 (F : Val) : StableHlo.after hostOps1_1 F (Proc.devRef .tc main_v27)
    = transpose S64x64 [1, 0] (F (Proc.devRef .tc main_arg9)) transposes_S64x64_S64x64_1_0 := by
  after_results_simp
theorem s11_v28 (F : Val) : StableHlo.after hostOps1_1 F (Proc.devRef .tc main_v28)
    = shapeCast S1x64 (F (Proc.devRef .tc main_arg8)) shapeCasts_S64_S1x64 := by
  after_results_simp
  rfl
theorem s11_args (F : Val) : ∀ r ∈ argRefs, StableHlo.after hostOps1_1 F (Proc.devRef .tc r) = F (Proc.devRef .tc r) := by
  kept
theorem s11_keep (F : Val) : ∀ r ∈ ([main_v16] : List (Ref sig .tc)),
    StableHlo.after hostOps1_1 F (Proc.devRef .tc r) = F (Proc.devRef .tc r) := by
  kept

/-- Before region 2: the two columns of the query pairs. -/
theorem s2_v31 (F : Val) : StableHlo.after hostOps2 F (Proc.devRef .tc main_v31) = uOf (F (Proc.devRef .tc main_arg2)) := by
  after_results_simp
  rfl
theorem s2_v33 (F : Val) : StableHlo.after hostOps2 F (Proc.devRef .tc main_v33) = vOf (F (Proc.devRef .tc main_arg2)) := by
  after_results_simp
  rfl
theorem s2_args (F : Val) : ∀ r ∈ argRefs, StableHlo.after hostOps2 F (Proc.devRef .tc r) = F (Proc.devRef .tc r) := by
  kept
theorem s2_keep (F : Val) : ∀ r ∈ ([main_v29] : List (Ref sig .tc)),
    StableHlo.after hostOps2 F (Proc.devRef .tc r) = F (Proc.devRef .tc r) := by
  kept

/-- The third take: rows of the second hidden array at the first endpoints. -/
theorem s21_v34 (F : Val) : StableHlo.after hostOps2_1 F (Proc.devRef .tc main_v34)
    = takeFill gather_S50000x64_S400000x1_S400000x64_1_0_n_n_0_1_164 bcast_S_S400000 bcast_S400000_S400000x1_0
        bcast_S_S400000x1 bcast_S1_S1x1_1 bcast_S1x1_S400000x1_0_1 reducesTo_S400000x1_S400000_d1 h_S_
        bcast_S400000_S400000x64_0 bcast_S_S400000x64 (F (Proc.devRef .tc main_v29)) (F (Proc.devRef .tc main_v31)) := by
  take_read
theorem s21_args (F : Val) : ∀ r ∈ argRefs, StableHlo.after hostOps2_1 F (Proc.devRef .tc r) = F (Proc.devRef .tc r) := by
  kept
theorem s21_keep (F : Val) : ∀ r ∈ ([main_v29, main_v33] : List (Ref sig .tc)),
    StableHlo.after hostOps2_1 F (Proc.devRef .tc r) = F (Proc.devRef .tc r) := by
  kept

/-- The fourth take: rows of the second hidden array at the second endpoints. -/
theorem s22_v35 (F : Val) : StableHlo.after hostOps2_2 F (Proc.devRef .tc main_v35)
    = takeFill gather_S50000x64_S400000x1_S400000x64_1_0_n_n_0_1_164 bcast_S_S400000 bcast_S400000_S400000x1_0
        bcast_S_S400000x1 bcast_S1_S1x1_1 bcast_S1x1_S400000x1_0_1 reducesTo_S400000x1_S400000_d1 h_S_
        bcast_S400000_S400000x64_0 bcast_S_S400000x64 (F (Proc.devRef .tc main_v29)) (F (Proc.devRef .tc main_v33)) := by
  take_read
theorem s22_args (F : Val) : ∀ r ∈ argRefs, StableHlo.after hostOps2_2 F (Proc.devRef .tc r) = F (Proc.devRef .tc r) := by
  kept
theorem s22_keep (F : Val) : ∀ r ∈ ([main_v34] : List (Ref sig .tc)),
    StableHlo.after hostOps2_2 F (Proc.devRef .tc r) = F (Proc.devRef .tc r) := by
  kept

/-- Before region 2: the three column slices of the first scorer weight, transposed; the second weight as a column; the biases. -/
theorem s23_v37 (F : Val) : StableHlo.after hostOps2_3 F (Proc.devRef .tc main_v37)
    = transpose S64x64 [1, 0] (extractStridedSlice S64x64 ![0, 0] (F (Proc.devRef .tc main_arg10)) slices_S64x129_S64x64_0_0) transposes_S64x64_S64x64_1_0 := by
  after_results_simp
theorem s23_v39 (F : Val) : StableHlo.after hostOps2_3 F (Proc.devRef .tc main_v39)
    = transpose S64x64 [1, 0] (extractStridedSlice S64x64 ![0, 64] (F (Proc.devRef .tc main_arg10)) slices_S64x129_S64x64_0_64) transposes_S64x64_S64x64_1_0 := by
  after_results_simp
theorem s23_v41 (F : Val) : StableHlo.after hostOps2_3 F (Proc.devRef .tc main_v41)
    = transpose S1x64 [1, 0] (extractStridedSlice S64x1 ![0, 128] (F (Proc.devRef .tc main_arg10)) slices_S64x129_S64x1_0_128) transposes_S64x1_S1x64_1_0 := by
  after_results_simp
theorem s23_v42 (F : Val) : StableHlo.after hostOps2_3 F (Proc.devRef .tc main_v42)
    = transpose S64x1 [1, 0] (F (Proc.devRef .tc main_arg12)) transposes_S1x64_S64x1_1_0 := by
  after_results_simp
theorem s23_v43 (F : Val) : StableHlo.after hostOps2_3 F (Proc.devRef .tc main_v43)
    = shapeCast S1x64 (F (Proc.devRef .tc main_arg11)) shapeCasts_S64_S1x64 := by
  after_results_simp
  rfl
theorem s23_v44 (F : Val) : StableHlo.after hostOps2_3 F (Proc.devRef .tc main_v44)
    = shapeCast S1x1 (F (Proc.devRef .tc main_arg13)) shapeCasts_S1_S1x1 := by
  after_results_simp
  rfl
theorem s23_args (F : Val) : ∀ r ∈ argRefs, StableHlo.after hostOps2_3 F (Proc.devRef .tc r) = F (Proc.devRef .tc r) := by
  kept
theorem s23_keep (F : Val) : ∀ r ∈ ([main_v34, main_v35] : List (Ref sig .tc)),
    StableHlo.after hostOps2_3 F (Proc.devRef .tc r) = F (Proc.devRef .tc r) := by
  kept

/-- After region 2: the result column flattened. -/
theorem s3_v46 (F : Val) : StableHlo.after hostOps3 F (Proc.devRef .tc main_v46)
    = shapeCast S400000 (F (Proc.devRef .tc main_v45)) shapeCasts_S400000x1_S400000 := by
  after_results_simp
  rfl

end Cert.KernelIdeal.HostRead

end
-- ==== Proof.Spec.lean ====
/-
  The two layers of the model as functions of whole arrays, index by index, over the extended reals.

  A SAGE layer takes the summed neighbour features `agg` (one row per node), the neighbour counts `cnt` (one column),
  the node features `x`, two weight matrices already transposed (`wl`, `wr`: feature k to hidden unit j) and a bias row,
  and answers  max (Σ_k (agg[i,k] / max (cnt[i], 1)) · wl[k,j] + Σ_k x[i,k] · wr[k,j] + b[j], 0)  at node i, unit j.

  The edge scorer takes the two gathered endpoint rows `hu`, `hv`, the edge feature column `t`, the three slices of
  the first weight matrix (transposed), its bias row, the second weight column and its bias, and answers
  Σ_j max (Σ_k hu[q,k]·wu[k,j] + Σ_k hv[q,k]·wv[k,j] + Σ_k t[q,k]·wt[k,j] + b1[j], 0) · w2[j,0] + b2[0]  at query q.

  The literals 1.0 and 0.0 are kept as the words the programs carry; they are never evaluated.
-/
import Idealize.ShloMosaic.PureOps.Ideal
import Idealize.ShloMosaic.Lib.ValueIdx

noncomputable section

namespace Cert.Sage

open Idealize.ShloMosaic Idealize.ShloMosaic.ValueIdx

/-- An array of extended reals over the literal shape [n, d]. -/
abbrev Arr (n d : Nat) := (⟨2, ![n, d]⟩ : Shape).Idx → EReal

/-- The word of 1.0, read at the extended reals. -/
abbrev one : EReal := Ideal.ofBits .f32 0x3F800000#32
/-- The word of 0.0, read at the extended reals. -/
abbrev zero : EReal := Ideal.ofBits .f32 0x00000000#32

/-- One SAGE layer at node `p`, hidden unit `q`. -/
def sageAt {D : Nat} (agg : Arr 50000 D) (cnt : Arr 50000 1) (x : Arr 50000 D) (wl wr : Arr D 64) (b : Arr 1 64)
    (p : Fin 50000) (q : Fin 64) : EReal :=
  max (((∑ k : Fin D, Ideal.div (agg (ix2 p k)) (max (cnt (ix2 p (0 : Fin 1))) one) * wl (ix2 k q))
      + ∑ k : Fin D, x (ix2 p k) * wr (ix2 k q)) + b (ix2 (0 : Fin 1) q)) zero

/-- One SAGE layer as a whole array [50000, 64]. -/
def sageOut {D : Nat} (agg : Arr 50000 D) (cnt : Arr 50000 1) (x : Arr 50000 D) (wl wr : Arr D 64) (b : Arr 1 64) :
    Arr 50000 64 :=
  fun i => sageAt agg cnt x wl wr b (i 0) (i 1)

/-- The hidden unit `j` of the edge scorer at query `p`, after the rectifier. -/
def hidAt (hu hv : Arr 400000 64) (t : Arr 400000 1) (wu wv : Arr 64 64) (wt : Arr 1 64) (b1 : Arr 1 64)
    (p : Fin 400000) (j : Fin 64) : EReal :=
  max ((((∑ k : Fin 64, hu (ix2 p k) * wu (ix2 k j)) + ∑ k : Fin 64, hv (ix2 p k) * wv (ix2 k j))
      + ∑ k : Fin 1, t (ix2 p k) * wt (ix2 k j)) + b1 (ix2 (0 : Fin 1) j)) zero

/-- The edge scorer at query `p` (its one output column `r`). -/
def mlpAt (hu hv : Arr 400000 64) (t : Arr 400000 1) (wu wv : Arr 64 64) (wt : Arr 1 64) (b1 : Arr 1 64)
    (w2 : Arr 64 1) (b2 : Arr 1 1) (p : Fin 400000) (r : Fin 1) : EReal :=
  (∑ j : Fin 64, hidAt hu hv t wu wv wt b1 p j * w2 (ix2 j r)) + b2 (ix2 (0 : Fin 1) r)

/-- The edge scorer as a whole array [400000, 1]. -/
def mlpOut (hu hv : Arr 400000 64) (t : Arr 400000 1) (wu wv : Arr 64 64) (wt : Arr 1 64) (b1 : Arr 1 64)
    (w2 : Arr 64 1) (b2 : Arr 1 1) : Arr 400000 1 :=
  fun i => mlpAt hu hv t wu wv wt b1 w2 b2 (i 0) (i 1)

end Cert.Sage

end
-- ==== Proof.LibMatmulAt.lean ====
/-
  A `tpu.matmul` into a zero accumulator, read at an output index, at the ideal instance: the plain sum of products
  over the one contracted axis, for the two rank-2 layouts a kernel uses.

  * `transposedRhs M K N` contracts the last axis of an M×K left operand with the last axis of an N×K right operand:
      out (p, q) = ∑ k, l (p, k) · r (q, k).
  * `plain M K N` contracts the last axis of an M×K left operand with the first axis of a K×N right operand:
      out (p, q) = ∑ k, l (p, k) · r (k, q).
  Both are stated for every M, K, N and every pair of operand formats, so one statement serves every tiling; a printed
  record with the same dimension numbers is one of these two by `rfl`.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {M K N : Nat}

/-! ### Last axis with last axis -/

theorem tr_lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem tr_lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem tr_rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem tr_rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- `out (p, q) = ∑ k, l (p, k) · r (q, k)`. -/
theorem matmul_transposedRhs_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact tr_lhs_0 _ _
      | ⟨1, _⟩ => exact (tr_lhs_1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact tr_rhs_0 _ _
      | ⟨1, _⟩ => exact (tr_rhs_1 _ _).trans hk)
  rw [el, er]

/-! ### Last axis with first axis -/

theorem pl_lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem pl_lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem pl_rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem pl_rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `out (p, q) = ∑ k, l (p, k) · r (k, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact pl_lhs_0 _ _
      | ⟨1, _⟩ => exact (pl_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (pl_rhs_0 _ _).trans hk
      | ⟨1, _⟩ => exact pl_rhs_1 _ _)
  rw [el, er]

end Idealize.ShloMosaic.MatmulAt

end
-- ==== Proof.LibColumn.lean ====
import Idealize.ShloMosaic.Lib.ValueIdx
import Idealize.ShloMosaic.Lib.Pipeline.Value

/-!
Column vectors read at an index: a length-`a` vector as an `[a, 1]` column and back, and a column broadcast along the rows
of an `[a, b]` array. (The row forms `[a] ↔ [1, a]` and `[1, b] → [a, b]` are the library's; these are their transposes.)
-/

namespace Idealize.ShloMosaic.ValueColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueColumn
-- ==== Proof.Region0.lean ====
/-
  Region 0 of the kernel program: what its output array holds when the region ends, as one function of the arrays the
  region finds — the SAGE layer of Spec.lean at every node and hidden unit. Grid point t stages rows 2000·t … 2000·t + 1999
  of the row-indexed arrays and the whole of the weights and the bias; its body is the layer on those rows; the 25 blocks
  tile the 50000 rows.
-/
import proofs.«420615_j64235530879430_2_alg».proof.Proof.Gen.KernelIdeal.Frame
import proofs.«420615_j64235530879430_2_alg».proof.Proof.Spec
import proofs.«420615_j64235530879430_2_alg».proof.Proof.LibMatmulAt
import proofs.«420615_j64235530879430_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Sage (Arr sageAt sageOut)

/-! ## The body's arithmetic on one block of rows -/

/-- A [2000,128] block times a [128,64] matrix, added into zero, at row p and column q: the sum over the 128 features. -/
theorem product_at {φ₁ φ₂ : FTy} (l : FVec Ideal S2000x128 φ₁) (r : FVec Ideal S128x64 φ₂) (p : Fin 2000) (q : Fin 64) :
    matmul dot_S2000x128_S128x64_S2000x64_1_0_0_1_n_n none l r (constant S2000x64 .f32 0x00000000#32) (ix2 p q)
      = ∑ k : Fin 128, l (ix2 p k) * r (ix2 k q) :=
  MatmulAt.matmul_plain_apply (M := 2000) (K := 128) (N := 64) none l r p q

/-- What the body stores, at row p of the block and hidden unit q: the neighbour sums of the row divided by
    max (count, 1) and multiplied into the first weight matrix, plus the row's own features multiplied into the second,
    plus the bias, rectified. The casts to a shape itself and the changes of float format are identities here; the count
    column and the bias row are read at coordinate 0 of their unit axis. -/
theorem layer_rows_at (cnt : Vec Ideal S2000x1 .f32) (agg x : Vec Ideal S2000x128 .f32) (wl wr : Vec Ideal S128x64 .f32)
    (b : Vec Ideal S1x64 .f32) (p : Fin 2000) (q : Fin 64) :
    k0_pay1 (F := Ideal) cnt agg x wl wr b (ix2 p q)
      = max (((∑ k : Fin 128, Ideal.div (agg (ix2 p k)) (max (cnt (ix2 p (0 : Fin 1))) Cert.Sage.one) * wl (ix2 k q))
          + ∑ k : Fin 128, x (ix2 p k) * wr (ix2 k q)) + b (ix2 (0 : Fin 1) q)) Cert.Sage.zero := by
  unfold k0_pay1
  simp only [shapeCast_self]
  rw [maximumf_apply, addf_apply, addf_apply, broadcast_apply, broadcastTo_1b_ab_apply, product_at, product_at]
  simp only [truncf_apply, divf_apply, ValueColumn.broadcastTo_a1_ab_apply, maximumf_apply, broadcast_apply]
  rfl

/-! ## The blocks the body reads, as rows of the arrays the region finds -/

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the 25 grid points: the windows of the three row-indexed inputs and of the output sit at block
    (t, 0); the two weight matrices and the bias stay at block (0, 0). -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Row p of the neighbour-sum block at point t is row 2000·t + p of the array. -/
theorem agg_rows (c : Dev nD) (t : Fin cfg0.N) (p : Fin 2000) (k : Fin 128) (r : Fin 50000) (hr : r.val = 2000 * t.val + p.val) :
    (iblk0 V c 0 t : Vec Ideal S2000x128 .f32) (ix2 p k) = (V c main_v7 : Arr 50000 128) (ix2 r k) := by
  obtain ⟨⟨e0, e1⟩, -⟩ := block_index t
  unfold iblk0
  rw [View.read_apply]
  show V c main_v7 _ = V c main_v7 _
  refine congrArg (V c main_v7) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- Row p of the count block at point t is row 2000·t + p of the count column. -/
theorem cnt_rows (c : Dev nD) (t : Fin cfg0.N) (p : Fin 2000) (r : Fin 50000) (hr : r.val = 2000 * t.val + p.val) :
    (iblk0 V c 1 t : Vec Ideal S2000x1 .f32) (ix2 p (0 : Fin 1)) = (V c main_v12 : Arr 50000 1) (ix2 r (0 : Fin 1)) := by
  obtain ⟨-, ⟨e0, e1⟩, -⟩ := block_index t
  unfold iblk0
  rw [View.read_apply]
  show V c main_v12 _ = V c main_v12 _
  refine congrArg (V c main_v12) (funext fun a => Fin.ext ?_)
  match a with
  | ⟨0, _⟩ => show win0_1.index t (0 : Fin 2) * 2000 + 1 * p.val = r.val; rw [e0, hr]; omega
  | ⟨1, _⟩ => show win0_1.index t (1 : Fin 2) * 1 + 1 * 0 = 0; rw [e1]

/-- Row p of the feature block at point t is row 2000·t + p of the feature array. -/
theorem x_rows (c : Dev nD) (t : Fin cfg0.N) (p : Fin 2000) (k : Fin 128) (r : Fin 50000) (hr : r.val = 2000 * t.val + p.val) :
    (iblk0 V c 2 t : Vec Ideal S2000x128 .f32) (ix2 p k) = (V c main_arg0 : Arr 50000 128) (ix2 r k) := by
  obtain ⟨-, -, ⟨e0, e1⟩, -⟩ := block_index t
  unfold iblk0
  rw [View.read_apply]
  show V c main_arg0 _ = V c main_arg0 _
  refine congrArg (V c main_arg0) (funext fun a => Fin.ext ?_)
  match a with
  | ⟨0, _⟩ => show win0_2.index t (0 : Fin 2) * 2000 + 1 * p.val = r.val; rw [e0, hr]; omega
  | ⟨1, _⟩ => show win0_2.index t (1 : Fin 2) * 128 + 1 * k.val = k.val; rw [e1]; omega

/-- The first weight block is the whole matrix, at every point. -/
theorem wl_whole (c : Dev nD) (t : Fin cfg0.N) (k : Fin 128) (q : Fin 64) :
    (iblk0 V c 3 t : Vec Ideal S128x64 .f32) (ix2 k q) = (V c main_v13 : Arr 128 64) (ix2 k q) := by
  obtain ⟨-, -, -, ⟨e0, e1⟩, -⟩ := block_index t
  unfold iblk0
  rw [View.read_apply]
  show V c main_v13 _ = V c main_v13 _
  refine congrArg (V c main_v13) (funext fun a => Fin.ext ?_)
  match a with
  | ⟨0, _⟩ => show win0_3.index t (0 : Fin 2) * 128 + 1 * k.val = k.val; rw [e0]; omega
  | ⟨1, _⟩ => show win0_3.index t (1 : Fin 2) * 64 + 1 * q.val = q.val; rw [e1]; omega

/-- The second weight block is the whole matrix, at every point. -/
theorem wr_whole (c : Dev nD) (t : Fin cfg0.N) (k : Fin 128) (q : Fin 64) :
    (iblk0 V c 4 t : Vec Ideal S128x64 .f32) (ix2 k q) = (V c main_v14 : Arr 128 64) (ix2 k q) := by
  obtain ⟨-, -, -, -, ⟨e0, e1⟩, -⟩ := block_index t
  unfold iblk0
  rw [View.read_apply]
  show V c main_v14 _ = V c main_v14 _
  refine congrArg (V c main_v14) (funext fun a => Fin.ext ?_)
  match a with
  | ⟨0, _⟩ => show win0_4.index t (0 : Fin 2) * 128 + 1 * k.val = k.val; rw [e0]; omega
  | ⟨1, _⟩ => show win0_4.index t (1 : Fin 2) * 64 + 1 * q.val = q.val; rw [e1]; omega

/-- The bias block is the whole bias row, at every point. -/
theorem bias_whole (c : Dev nD) (t : Fin cfg0.N) (q : Fin 64) :
    (iblk0 V c 5 t : Vec Ideal S1x64 .f32) (ix2 (0 : Fin 1) q) = (V c main_v15 : Arr 1 64) (ix2 (0 : Fin 1) q) := by
  obtain ⟨-, -, -, -, -, ⟨e0, e1⟩, -⟩ := block_index t
  unfold iblk0
  rw [View.read_apply]
  show V c main_v15 _ = V c main_v15 _
  refine congrArg (V c main_v15) (funext fun a => Fin.ext ?_)
  match a with
  | ⟨0, _⟩ => show win0_5.index t (0 : Fin 2) * 1 + 1 * 0 = 0; rw [e0]
  | ⟨1, _⟩ => show win0_5.index t (1 : Fin 2) * 64 + 1 * q.val = q.val; rw [e1]; omega

/-! ## From the blocks to the array -/

/-- WHAT POINT t WRITES BACK is rows 2000·t … 2000·t + 1999 of the layer of the arrays the region finds: the body stores
    one whole block, the layer on its staged rows, and each staged row is the array's row at the same offset. -/
theorem writeback_is_layer_rows (c : Dev nD) (t : Fin cfg0.N) :
    (dat0 (F := Ideal) V c).flushed 6 t
      = ((cfg0.win 6).blk t).view.read (Elt Ideal)
          (sageOut (V c main_v7) (V c main_v12) (V c main_arg0) (V c main_v13) (V c main_v14) (V c main_v15)) := by
  show (cfg0.win 6).cut (grid0.coords t) ((dat0 V c).after 6 t) = _
  rw [after0_6]
  unfold out0_6
  rw [View.canon_unit_zero zeros2]
  simp only [View.ld_unit_zero (S := S2000x1) zeros2, View.ld_unit_zero (S := S2000x128) zeros2,
    View.ld_unit_zero (S := S128x64) zeros2, View.ld_unit_zero (S := S1x64) zeros2]
  obtain ⟨-, -, -, -, -, -, ⟨e0, e1⟩⟩ := block_index t
  have hN : grid0.N = 25 := N_0
  have ht : t.val < 25 := hN ▸ t.isLt
  funext j
  obtain ⟨p, q, rfl⟩ : ∃ (p : Fin 2000) (q : Fin 64), j = ix2 p q := ⟨j 0, j 1, eq_ix2 j⟩
  have hp : p.val < 2000 := p.isLt
  have hr : 2000 * t.val + p.val < 50000 := by omega
  have hrow : ((cfg0.win 6).blk t).view.emb (ix2 p q) = ix2 (⟨2000 * t.val + p.val, hr⟩ : Fin 50000) q := by
    funext a; apply Fin.ext
    match a with
    | ⟨0, _⟩ => show win0_6.index t (0 : Fin 2) * 2000 + 1 * p.val = 2000 * t.val + p.val; rw [e0]; omega
    | ⟨1, _⟩ => show win0_6.index t (1 : Fin 2) * 64 + 1 * q.val = q.val; rw [e1]; omega
  refine (layer_rows_at (iblk0 V c 1 t) (iblk0 V c 0 t) (iblk0 V c 2 t) (iblk0 V c 3 t) (iblk0 V c 4 t) (iblk0 V c 5 t) p q).trans ?_
  rw [View.read_apply, hrow]
  show _ = sageAt (V c main_v7) (V c main_v12) (V c main_arg0) (V c main_v13) (V c main_v14) (V c main_v15) ⟨2000 * t.val + p.val, hr⟩ q
  unfold sageAt
  refine congrArg (fun s => max s Cert.Sage.zero) ?_
  refine congrArg₂ (· + ·) (congrArg₂ (· + ·) (Finset.sum_congr rfl fun k _ => ?_) (Finset.sum_congr rfl fun k _ => ?_)) ?_
  · rw [agg_rows V c t p k ⟨2000 * t.val + p.val, hr⟩ rfl, cnt_rows V c t p ⟨2000 * t.val + p.val, hr⟩ rfl, wl_whole V c t k q]
  · rw [x_rows V c t p k ⟨2000 * t.val + p.val, hr⟩ rfl, wr_whole V c t k q]
  · exact bias_whole V c t q

/-- An index of the output array is in point t's block iff each coordinate is in the block's range on its axis. -/
theorem mem_rows (t : Fin cfg0.N) (i : S50000x64.Idx) :
    i ∈ ((cfg0.win 6).blk t).view.set ↔ ∀ a : Fin 2, win0_6.index t a * S2000x64.size a ≤ (i a).val ∧ (i a).val < win0_6.index t a * S2000x64.size a + S2000x64.size a := by
  show i ∈ ((View.whole main_v16).slice (win0_6.rect t)).set ↔ _
  rw [View.set_slice_whole, Rect.mem_set_unit]
  exact Iff.rfl

/-- Every index of the output array lies in the block of the point its row falls in: row r in block r / 2000. -/
theorem rows_covered (i : S50000x64.Idx) : ∃ t : Fin cfg0.N, (cfg0.win 6).flush t = true ∧ i ∈ ((cfg0.win 6).blk t).view.set := by
  have hi0 : (i 0).val < 50000 := (i 0).isLt
  have hi1 : (i 1).val < 64 := (i 1).isLt
  have hN : grid0.N = 25 := N_0
  have hlt : (i 0).val / 2000 < grid0.N := by rw [hN]; omega
  refine ⟨⟨(i 0).val / 2000, hlt⟩, flush0_6 _, ?_⟩
  rw [mem_rows]
  obtain ⟨-, -, -, -, -, -, ⟨e0, e1⟩⟩ := block_index ⟨(i 0).val / 2000, hlt⟩
  intro a
  match a with
  | ⟨0, _⟩ =>
    show win0_6.index ⟨(i 0).val / 2000, hlt⟩ (0 : Fin 2) * 2000 ≤ (i 0).val ∧ (i 0).val < win0_6.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, hlt⟩ (1 : Fin 2) * 64 ≤ (i 1).val ∧ (i 1).val < win0_6.index ⟨(i 0).val / 2000, hlt⟩ (1 : Fin 2) * 64 + 64
    rw [e1]; omega

/-- THE ARRAY after region 0: the layer of the arrays the region finds, at every node and unit. -/
theorem final0 (c : Dev nD) :
    (dat0 (F := Ideal) V c).arrAt 6 cfg0.N
      = Cert.Sage.sageOut (V c main_v7) (V c main_v12) (V c main_arg0) (V c main_v13) (V c main_v14) (V c main_v15) :=
  (dat0 V c).arrAt_eq_of_cover 6 (sageOut (V c main_v7) (V c main_v12) (V c main_arg0) (V c main_v13) (V c main_v14) (V c main_v15))
    (fun t _ => writeback_is_layer_rows V c t) rows_covered

end Cert.KernelIdeal.Region0

end
-- ==== Proof.Region1.lean ====
/-
  Region 1 of the kernel program: what its output array holds when the region ends, as one function of the arrays the
  region finds — the SAGE layer of Spec.lean at every node and hidden unit. Grid point t stages rows 2000·t … 2000·t + 1999
  of the row-indexed arrays and the whole of the weights and the bias; its body is the layer on those rows; the 25 blocks
  tile the 50000 rows.
-/
import proofs.«420615_j64235530879430_2_alg».proof.Proof.Gen.KernelIdeal.Frame
import proofs.«420615_j64235530879430_2_alg».proof.Proof.Spec
import proofs.«420615_j64235530879430_2_alg».proof.Proof.LibMatmulAt
import proofs.«420615_j64235530879430_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Sage (Arr sageAt sageOut)

/-! ## The body's arithmetic on one block of rows -/

/-- A [2000,64] block times a [64,64] matrix, added into zero, at row p and column q: the sum over the 64 features. -/
theorem product_at {φ₁ φ₂ : FTy} (l : FVec Ideal S2000x64 φ₁) (r : FVec Ideal S64x64 φ₂) (p : Fin 2000) (q : Fin 64) :
    matmul dot_S2000x64_S64x64_S2000x64_1_0_0_1_n_n none l r (constant S2000x64 .f32 0x00000000#32) (ix2 p q)
      = ∑ k : Fin 64, l (ix2 p k) * r (ix2 k q) :=
  MatmulAt.matmul_plain_apply (M := 2000) (K := 64) (N := 64) none l r p q

/-- What the body stores, at row p of the block and hidden unit q: the neighbour sums of the row divided by
    max (count, 1) and multiplied into the first weight matrix, plus the row's own features multiplied into the second,
    plus the bias, rectified. The casts to a shape itself and the changes of float format are identities here; the count
    column and the bias row are read at coordinate 0 of their unit axis. -/
theorem layer_rows_at (cnt : Vec Ideal S2000x1 .f32) (agg x : Vec Ideal S2000x64 .f32) (wl wr : Vec Ideal S64x64 .f32)
    (b : Vec Ideal S1x64 .f32) (p : Fin 2000) (q : Fin 64) :
    k1_pay1 (F := Ideal) cnt agg x wl wr b (ix2 p q)
      = max (((∑ k : Fin 64, Ideal.div (agg (ix2 p k)) (max (cnt (ix2 p (0 : Fin 1))) Cert.Sage.one) * wl (ix2 k q))
          + ∑ k : Fin 64, x (ix2 p k) * wr (ix2 k q)) + b (ix2 (0 : Fin 1) q)) Cert.Sage.zero := by
  unfold k1_pay1
  simp only [shapeCast_self]
  rw [maximumf_apply, addf_apply, addf_apply, broadcast_apply, broadcastTo_1b_ab_apply, product_at, product_at]
  simp only [truncf_apply, divf_apply, ValueColumn.broadcastTo_a1_ab_apply, maximumf_apply, broadcast_apply]
  rfl

/-! ## The blocks the body reads, as rows of the arrays the region finds -/

variable (V : (c : Dev nD) → (b : Ref sig .tc) → Buf (Elt Ideal) ((c : Thread nD τ).loc b))

theorem zeros2 : (![0, 0] : Fin 2 → Nat) = fun _ => 0 := funext fun a => by fin_cases a <;> rfl

/-- The index maps over the 25 grid points: the windows of the three row-indexed inputs and of the output sit at block
    (t, 0); the two weight matrices and the bias stay at block (0, 0). -/
theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Row p of the neighbour-sum block at point t is row 2000·t + p of the array. -/
theorem agg_rows (c : Dev nD) (t : Fin cfg1.N) (p : Fin 2000) (k : Fin 64) (r : Fin 50000) (hr : r.val = 2000 * t.val + p.val) :
    (iblk1 V c 0 t : Vec Ideal S2000x64 .f32) (ix2 p k) = (V c main_v20 : Arr 50000 64) (ix2 r k) := by
  obtain ⟨⟨e0, e1⟩, -⟩ := block_index t
  unfold iblk1
  rw [View.read_apply]
  show V c main_v20 _ = V c main_v20 _
  refine congrArg (V c main_v20) (funext fun a => Fin.ext ?_)
  match a with
  | ⟨0, _⟩ => show win1_0.index t (0 : Fin 2) * 2000 + 1 * p.val = r.val; rw [e0, hr]; omega
  | ⟨1, _⟩ => show win1_0.index t (1 : Fin 2) * 64 + 1 * k.val = k.val; rw [e1]; omega

/-- Row p of the count block at point t is row 2000·t + p of the count column. -/
theorem cnt_rows (c : Dev nD) (t : Fin cfg1.N) (p : Fin 2000) (r : Fin 50000) (hr : r.val = 2000 * t.val + p.val) :
    (iblk1 V c 1 t : Vec Ideal S2000x1 .f32) (ix2 p (0 : Fin 1)) = (V c main_v25 : Arr 50000 1) (ix2 r (0 : Fin 1)) := by
  obtain ⟨-, ⟨e0, e1⟩, -⟩ := block_index t
  unfold iblk1
  rw [View.read_apply]
  show V c main_v25 _ = V c main_v25 _
  refine congrArg (V c main_v25) (funext fun a => Fin.ext ?_)
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- Row p of the feature block at point t is row 2000·t + p of the feature array. -/
theorem x_rows (c : Dev nD) (t : Fin cfg1.N) (p : Fin 2000) (k : Fin 64) (r : Fin 50000) (hr : r.val = 2000 * t.val + p.val) :
    (iblk1 V c 2 t : Vec Ideal S2000x64 .f32) (ix2 p k) = (V c main_v16 : Arr 50000 64) (ix2 r k) := by
  obtain ⟨-, -, ⟨e0, e1⟩, -⟩ := block_index t
  unfold iblk1
  rw [View.read_apply]
  show V c main_v16 _ = V c main_v16 _
  refine congrArg (V c main_v16) (funext fun a => Fin.ext ?_)
  match a with
  | ⟨0, _⟩ => show win1_2.index t (0 : Fin 2) * 2000 + 1 * p.val = r.val; rw [e0, hr]; omega
  | ⟨1, _⟩ => show win1_2.index t (1 : Fin 2) * 64 + 1 * k.val = k.val; rw [e1]; omega

/-- The first weight block is the whole matrix, at every point. -/
theorem wl_whole (c : Dev nD) (t : Fin cfg1.N) (k : Fin 64) (q : Fin 64) :
    (iblk1 V c 3 t : Vec Ideal S64x64 .f32) (ix2 k q) = (V c main_v26 : Arr 64 64) (ix2 k q) := by
  obtain ⟨-, -, -, ⟨e0, e1⟩, -⟩ := block_index t
  unfold iblk1
  rw [View.read_apply]
  show V c main_v26 _ = V c main_v26 _
  refine congrArg (V c main_v26) (funext fun a => Fin.ext ?_)
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- The second weight block is the whole matrix, at every point. -/
theorem wr_whole (c : Dev nD) (t : Fin cfg1.N) (k : Fin 64) (q : Fin 64) :
    (iblk1 V c 4 t : Vec Ideal S64x64 .f32) (ix2 k q) = (V c main_v27 : Arr 64 64) (ix2 k q) := by
  obtain ⟨-, -, -, -, ⟨e0, e1⟩, -⟩ := block_index t
  unfold iblk1
  rw [View.read_apply]
  show V c main_v27 _ = V c main_v27 _
  refine congrArg (V c main_v27) (funext fun a => Fin.ext ?_)
  match a with
  | ⟨0, _⟩ => show win1_4.index t (0 : Fin 2) * 64 + 1 * k.val = k.val; rw [e0]; omega
  | ⟨1, _⟩ => show win1_4.index t (1 : Fin 2) * 64 + 1 * q.val = q.val; rw [e1]; omega

/-- The bias block is the whole bias row, at every point. -/
theorem bias_whole (c : Dev nD) (t : Fin cfg1.N) (q : Fin 64) :
    (iblk1 V c 5 t : Vec Ideal S1x64 .f32) (ix2 (0 : Fin 1) q) = (V c main_v28 : Arr 1 64) (ix2 (0 : Fin 1) q) := by
  obtain ⟨-, -, -, -, -, ⟨e0, e1⟩, -⟩ := block_index t
  unfold iblk1
  rw [View.read_apply]
  show V c main_v28 _ = V c main_v28 _
  refine congrArg (V c main_v28) (funext fun a => Fin.ext ?_)
  match a with
  | ⟨0, _⟩ => show win1_5.index t (0 : Fin 2) * 1 + 1 * 0 = 0; rw [e0]
  | ⟨1, _⟩ => show win1_5.index t (1 : Fin 2) * 64 + 1 * q.val = q.val; rw [e1]; omega

/-! ## From the blocks to the array -/

/-- WHAT POINT t WRITES BACK is rows 2000·t … 2000·t + 1999 of the layer of the arrays the region finds: the body stores
    one whole block, the layer on its staged rows, and each staged row is the array's row at the same offset. -/
theorem writeback_is_layer_rows (c : Dev nD) (t : Fin cfg1.N) :
    (dat1 (F := Ideal) V c).flushed 6 t
      = ((cfg1.win 6).blk t).view.read (Elt Ideal)
          (sageOut (V c main_v20) (V c main_v25) (V c main_v16) (V c main_v26) (V c main_v27) (V c main_v28)) := by
  show (cfg1.win 6).cut (grid1.coords t) ((dat1 V c).after 6 t) = _
  rw [after1_6]
  unfold out1_6
  rw [View.canon_unit_zero zeros2]
  simp only [View.ld_unit_zero (S := S2000x1) zeros2, View.ld_unit_zero (S := S2000x64) zeros2,
    View.ld_unit_zero (S := S64x64) zeros2, View.ld_unit_zero (S := S1x64) zeros2]
  obtain ⟨-, -, -, -, -, -, ⟨e0, e1⟩⟩ := block_index t
  have hN : grid1.N = 25 := N_1
  have ht : t.val < 25 := hN ▸ t.isLt
  funext j
  obtain ⟨p, q, rfl⟩ : ∃ (p : Fin 2000) (q : Fin 64), j = ix2 p q := ⟨j 0, j 1, eq_ix2 j⟩
  have hp : p.val < 2000 := p.isLt
  have hr : 2000 * t.val + p.val < 50000 := by omega
  have hrow : ((cfg1.win 6).blk t).view.emb (ix2 p q) = ix2 (⟨2000 * t.val + p.val, hr⟩ : Fin 50000) q := by
    funext a; apply Fin.ext
    match a with
    | ⟨0, _⟩ => show win1_6.index t (0 : Fin 2) * 2000 + 1 * p.val = 2000 * t.val + p.val; rw [e0]; omega
    | ⟨1, _⟩ => show win1_6.index t (1 : Fin 2) * 64 + 1 * q.val = q.val; rw [e1]; omega
  refine (layer_rows_at (iblk1 V c 1 t) (iblk1 V c 0 t) (iblk1 V c 2 t) (iblk1 V c 3 t) (iblk1 V c 4 t) (iblk1 V c 5 t) p q).trans ?_
  rw [View.read_apply, hrow]
  show _ = sageAt (V c main_v20) (V c main_v25) (V c main_v16) (V c main_v26) (V c main_v27) (V c main_v28) ⟨2000 * t.val + p.val, hr⟩ q
  unfold sageAt
  refine congrArg (fun s => max s Cert.Sage.zero) ?_
  refine congrArg₂ (· + ·) (congrArg₂ (· + ·) (Finset.sum_congr rfl fun k _ => ?_) (Finset.sum_congr rfl fun k _ => ?_)) ?_
  · rw [agg_rows V c t p k ⟨2000 * t.val + p.val, hr⟩ rfl, cnt_rows V c t p ⟨2000 * t.val + p.val, hr⟩ rfl, wl_whole V c t k q]
  · rw [x_rows V c t p k ⟨2000 * t.val + p.val, hr⟩ rfl, wr_whole V c t k q]
  · exact bias_whole V c t q

/-- An index of the output array is in point t's block iff each coordinate is in the block's range on its axis. -/
theorem mem_rows (t : Fin cfg1.N) (i : S50000x64.Idx) :
    i ∈ ((cfg1.win 6).blk t).view.set ↔ ∀ a : Fin 2, win1_6.index t a * S2000x64.size a ≤ (i a).val ∧ (i a).val < win1_6.index t a * S2000x64.size a + S2000x64.size a := by
  show i ∈ ((View.whole main_v29).slice (win1_6.rect t)).set ↔ _
  rw [View.set_slice_whole, Rect.mem_set_unit]
  exact Iff.rfl

/-- Every index of the output array lies in the block of the point its row falls in: row r in block r / 2000. -/
theorem rows_covered (i : S50000x64.Idx) : ∃ t : Fin cfg1.N, (cfg1.win 6).flush t = true ∧ i ∈ ((cfg1.win 6).blk t).view.set := by
  have hi0 : (i 0).val < 50000 := (i 0).isLt
  have hi1 : (i 1).val < 64 := (i 1).isLt
  have hN : grid1.N = 25 := N_1
  have hlt : (i 0).val / 2000 < grid1.N := by rw [hN]; omega
  refine ⟨⟨(i 0).val / 2000, hlt⟩, flush1_6 _, ?_⟩
  rw [mem_rows]
  obtain ⟨-, -, -, -, -, -, ⟨e0, e1⟩⟩ := block_index ⟨(i 0).val / 2000, hlt⟩
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, hlt⟩ (1 : Fin 2) * 64 ≤ (i 1).val ∧ (i 1).val < win1_6.index ⟨(i 0).val / 2000, hlt⟩ (1 : Fin 2) * 64 + 64
    rw [e1]; omega

/-- THE ARRAY after region 1: the layer of the arrays the region finds, at every node and unit. -/
theorem final1 (c : Dev nD) :
    (dat1 (F := Ideal) V c).arrAt 6 cfg1.N
      = Cert.Sage.sageOut (V c main_v20) (V c main_v25) (V c main_v16) (V c main_v26) (V c main_v27) (V c main_v28) :=
  (dat1 V c).arrAt_eq_of_cover 6 (sageOut (V c main_v20) (V c main_v25) (V c main_v16) (V c main_v26) (V c main_v27) (V c main_v28))
    (fun t _ => writeback_is_layer_rows V c t) rows_covered

end Cert.KernelIdeal.Region1

end
-- ==== Proof.Region2.lean ====
/-
  Region 2 of the kernel program: what its output array holds when the region ends, as one function of the arrays the
  region finds — the edge scorer of Spec.lean at every query. Grid point t stages rows 4000·t … 4000·t + 3999 of the two
  gathered endpoint arrays and of the edge feature column, and the whole of the weights and biases; the 100 blocks tile the
  400000 queries.
-/
import proofs.«420615_j64235530879430_2_alg».proof.Proof.Gen.KernelIdeal.Frame
import proofs.«420615_j64235530879430_2_alg».proof.Proof.Spec
import proofs.«420615_j64235530879430_2_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Sage (Arr)

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## The body's payload at a row of the block -/

open Idealize.ShloMosaic.MatmulAt

/-- The three contractions of the body are plain products: rows by contraction, times contraction by columns. -/
theorem dotA_eq : dot_S4000x64_S64x64_S4000x64_1_0_0_1_n_n = DotDims.plain 4000 64 64 := rfl
theorem dotB_eq : dot_S4000x1_S1x64_S4000x64_1_0_0_1_n_n = DotDims.plain 4000 1 64 := rfl
theorem dotC_eq : dot_S4000x64_S64x1_S4000x1_1_0_0_1_n_n = DotDims.plain 4000 64 1 := rfl

/-- A single entry broadcast down a column reads that entry at every row. -/
theorem bcast_entry_apply {α : Type} (v : (⟨2, ![1, 1]⟩ : Shape).Idx → α) (h : (⟨2, ![1, 1]⟩ : Shape).Broadcasts ⟨2, ![4000, 1]⟩)
    (p : Fin 4000) (r : Fin 1) : broadcastTo ⟨2, ![4000, 1]⟩ v h (ix2 p r) = v (ix2 (0 : Fin 1) r) := by
  refine broadcastTo_apply v h (ix2 p r) (ix2 (0 : Fin 1) r) fun ax => ?_
  match ax with
  | ⟨0, _⟩ => rfl
  | ⟨1, _⟩ => show r.val = if (1 : Nat) = 1 then 0 else r.val; rw [if_pos rfl]; omega

/-- THE PAYLOAD AT ROW p: the stored value is the scorer's formula of the nine loaded blocks — the three products summed
    in the order (hu·wu + hv·wv) + t·wt, the first bias row added, the rectifier, the product with the second weight
    column, the second bias added. The changes of format are the identity on the extended reals and each product runs
    into a zero accumulator. -/
theorem pay_at (v0 v3 : FVec Ideal S4000x64 .f32) (v6 : FVec Ideal S4000x1 .f32) (v8 v11 : FVec Ideal S64x64 .f32)
    (v14 v22 : FVec Ideal S1x64 .f32) (v29 : FVec Ideal S64x1 .f32) (v33 : FVec Ideal S1x1 .f32) (p : Fin 4000) (r : Fin 1) :
    k2_pay1 (F := Ideal) (k2_pay2 v0 v3 v6 v8 v11 v14 v22 v29) (k2_pay3 v33) (ix2 p r)
      = (∑ j : Fin 64, max ((((∑ k : Fin 64, v0 (ix2 p k) * v8 (ix2 k j)) + ∑ k : Fin 64, v3 (ix2 p k) * v11 (ix2 k j))
            + ∑ k : Fin 1, v6 (ix2 p k) * v14 (ix2 k j)) + v22 (ix2 (0 : Fin 1) j)) Cert.Sage.zero * v29 (ix2 j r))
          + v33 (ix2 (0 : Fin 1) r) := by
  unfold k2_pay1 k2_pay2 k2_pay3
  simp only [shapeCast_self, matmul, dotA_eq, dotB_eq, dotC_eq]
  rw [addf_apply, matmul_plain_apply, bcast_entry_apply]
  simp only [truncf_apply, maximumf_apply, addf_apply, matmul_plain_apply, broadcastTo_1b_ab_apply, broadcast_apply]
  rfl

/-! ## The windows' blocks as rows of the arrays -/

/-- The printed index maps over the grid: the two endpoint arrays, the edge feature column and the output move with the
    grid point along the rows; the weights and biases stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- Row p of the block staged at grid point t is row 4000·t + p of the whole array. -/
def row (t : Fin cfg2.N) (p : Fin 4000) : Fin 400000 :=
  ⟨4000 * t.val + p.val, by have h : cfg2.N = 100 := N_2; have := t.isLt; have := p.isLt; omega⟩

/-- The first endpoint block at (p, k) is the gathered array at row 4000·t + p. -/
theorem rd_hu (c : Dev nD) (t : Fin cfg2.N) (p : Fin 4000) (k : Fin 64) :
    (iblk2 (F := Ideal) V c 0 t : FVec Ideal S4000x64 .f32) (ix2 p k) = (V c main_v34 : Arr 400000 64) (ix2 (row t p) k) := by
  obtain ⟨e0, e1, -⟩ := idx_facts t
  unfold iblk2
  rw [View.read_apply]
  show V c main_v34 _ = V c main_v34 _
  congr 1
  funext a
  apply Fin.ext
  match a with
  | ⟨0, _⟩ => show win2_0.index t (0 : Fin 2) * 4000 + 1 * p.val = 4000 * t.val + p.val; omega
  | ⟨1, _⟩ => show win2_0.index t (1 : Fin 2) * 64 + 1 * k.val = k.val; omega

/-- The second endpoint block likewise. -/
theorem rd_hv (c : Dev nD) (t : Fin cfg2.N) (p : Fin 4000) (k : Fin 64) :
    (iblk2 (F := Ideal) V c 1 t : FVec Ideal S4000x64 .f32) (ix2 p k) = (V c main_v35 : Arr 400000 64) (ix2 (row t p) k) := by
  obtain ⟨-, -, e0, e1, -⟩ := idx_facts t
  unfold iblk2
  rw [View.read_apply]
  show V c main_v35 _ = V c main_v35 _
  congr 1
  funext a
  apply Fin.ext
  match a with
  | ⟨0, _⟩ => show win2_1.index t (0 : Fin 2) * 4000 + 1 * p.val = 4000 * t.val + p.val; omega
  | ⟨1, _⟩ => show win2_1.index t (1 : Fin 2) * 64 + 1 * k.val = k.val; omega

/-- The edge feature block likewise. -/
theorem rd_t (c : Dev nD) (t : Fin cfg2.N) (p : Fin 4000) (k : Fin 1) :
    (iblk2 (F := Ideal) V c 2 t : FVec Ideal S4000x1 .f32) (ix2 p k) = (V c main_arg3 : Arr 400000 1) (ix2 (row t p) k) := by
  obtain ⟨-, -, -, -, e0, e1, -⟩ := idx_facts t
  unfold iblk2
  rw [View.read_apply]
  show V c main_arg3 _ = V c main_arg3 _
  congr 1
  funext a
  apply Fin.ext
  match a with
  | ⟨0, _⟩ => show win2_2.index t (0 : Fin 2) * 4000 + 1 * p.val = 4000 * t.val + p.val; omega
  | ⟨1, _⟩ => show win2_2.index t (1 : Fin 2) * 1 + 1 * k.val = k.val; omega

/-- The weights and biases are staged whole: a block entry is the array's. -/
theorem rd_wu (c : Dev nD) (t : Fin cfg2.N) (k : Fin 64) (j : Fin 64) :
    (iblk2 (F := Ideal) V c 3 t : FVec Ideal S64x64 .f32) (ix2 k j) = (V c main_v37 : Arr 64 64) (ix2 k j) := by
  obtain ⟨-, -, -, -, -, -, e0, e1, -⟩ := idx_facts t
  unfold iblk2
  rw [View.read_apply]
  show V c main_v37 _ = V c main_v37 _
  congr 1
  funext a
  apply Fin.ext
  match a with
  | ⟨0, _⟩ => show win2_3.index t (0 : Fin 2) * 64 + 1 * k.val = k.val; omega
  | ⟨1, _⟩ => show win2_3.index t (1 : Fin 2) * 64 + 1 * j.val = j.val; omega

theorem rd_wv (c : Dev nD) (t : Fin cfg2.N) (k : Fin 64) (j : Fin 64) :
    (iblk2 (F := Ideal) V c 4 t : FVec Ideal S64x64 .f32) (ix2 k j) = (V c main_v39 : Arr 64 64) (ix2 k j) := by
  obtain ⟨-, -, -, -, -, -, -, -, e0, e1, -⟩ := idx_facts t
  unfold iblk2
  rw [View.read_apply]
  show V c main_v39 _ = V c main_v39 _
  congr 1
  funext a
  apply Fin.ext
  match a with
  | ⟨0, _⟩ => show win2_4.index t (0 : Fin 2) * 64 + 1 * k.val = k.val; omega
  | ⟨1, _⟩ => show win2_4.index t (1 : Fin 2) * 64 + 1 * j.val = j.val; omega

theorem rd_wt (c : Dev nD) (t : Fin cfg2.N) (k : Fin 1) (j : Fin 64) :
    (iblk2 (F := Ideal) V c 5 t : FVec Ideal S1x64 .f32) (ix2 k j) = (V c main_v41 : Arr 1 64) (ix2 k j) := by
  obtain ⟨-, -, -, -, -, -, -, -, -, -, e0, e1, -⟩ := idx_facts t
  unfold iblk2
  rw [View.read_apply]
  show V c main_v41 _ = V c main_v41 _
  congr 1
  funext a
  apply Fin.ext
  match a with
  | ⟨0, _⟩ => show win2_5.index t (0 : Fin 2) * 1 + 1 * k.val = k.val; omega
  | ⟨1, _⟩ => show win2_5.index t (1 : Fin 2) * 64 + 1 * j.val = j.val; omega

theorem rd_b1 (c : Dev nD) (t : Fin cfg2.N) (k : Fin 1) (j : Fin 64) :
    (iblk2 (F := Ideal) V c 6 t : FVec Ideal S1x64 .f32) (ix2 k j) = (V c main_v43 : Arr 1 64) (ix2 k j) := by
  obtain ⟨-, -, -, -, -, -, -, -, -, -, -, -, e0, e1, -⟩ := idx_facts t
  unfold iblk2
  rw [View.read_apply]
  show V c main_v43 _ = V c main_v43 _
  congr 1
  funext a
  apply Fin.ext
  match a with
  | ⟨0, _⟩ => show win2_6.index t (0 : Fin 2) * 1 + 1 * k.val = k.val; omega
  | ⟨1, _⟩ => show win2_6.index t (1 : Fin 2) * 64 + 1 * j.val = j.val; omega

theorem rd_w2 (c : Dev nD) (t : Fin cfg2.N) (k : Fin 64) (j : Fin 1) :
    (iblk2 (F := Ideal) V c 7 t : FVec Ideal S64x1 .f32) (ix2 k j) = (V c main_v42 : Arr 64 1) (ix2 k j) := by
  obtain ⟨-, -, -, -, -, -, -, -, -, -, -, -, -, -, e0, e1, -⟩ := idx_facts t
  unfold iblk2
  rw [View.read_apply]
  show V c main_v42 _ = V c main_v42 _
  congr 1
  funext a
  apply Fin.ext
  match a with
  | ⟨0, _⟩ => show win2_7.index t (0 : Fin 2) * 64 + 1 * k.val = k.val; omega
  | ⟨1, _⟩ => show win2_7.index t (1 : Fin 2) * 1 + 1 * j.val = j.val; omega

theorem rd_b2 (c : Dev nD) (t : Fin cfg2.N) (k : Fin 1) (j : Fin 1) :
    (iblk2 (F := Ideal) V c 8 t : FVec Ideal S1x1 .f32) (ix2 k j) = (V c main_v44 : Arr 1 1) (ix2 k j) := by
  obtain ⟨-, -, -, -, -, -, -, -, -, -, -, -, -, -, -, -, e0, e1, -⟩ := idx_facts t
  unfold iblk2
  rw [View.read_apply]
  show V c main_v44 _ = V c main_v44 _
  congr 1
  funext a
  apply Fin.ext
  match a with
  | ⟨0, _⟩ => show win2_8.index t (0 : Fin 2) * 1 + 1 * k.val = k.val; omega
  | ⟨1, _⟩ => show win2_8.index t (1 : Fin 2) * 1 + 1 * j.val = j.val; omega

/-- Row p of the output block at grid point t sits at row 4000·t + p of the output array. -/
theorem emb_out (t : Fin cfg2.N) (p : Fin 4000) (r : Fin 1) :
    ((cfg2.win 9).blk t).view.emb (ix2 p r) = (ix2 (row t p) r : S400000x1.Idx) := by
  obtain ⟨-, -, -, -, -, -, -, -, -, -, -, -, -, -, -, -, -, -, e0, e1⟩ := idx_facts t
  funext a
  apply Fin.ext
  match a with
  | ⟨0, _⟩ => show win2_9.index t (0 : Fin 2) * 4000 + 1 * p.val = 4000 * t.val + p.val; omega
  | ⟨1, _⟩ => show win2_9.index t (1 : Fin 2) * 1 + 1 * r.val = r.val; omega

/-! ## From blocks to the array -/

/-- WHAT GRID POINT t WRITES BACK is block t of the edge scorer of the arrays the region finds. -/
theorem flushed_eq (c : Dev nD) (t : Fin cfg2.N) :
    (dat2 (F := Ideal) V c).flushed 9 t = ((cfg2.win 9).blk t).view.read (Elt Ideal)
      (Cert.Sage.mlpOut (V c main_v34) (V c main_v35) (V c main_arg3) (V c main_v37) (V c main_v39) (V c main_v41)
        (V c main_v43) (V c main_v42) (V c main_v44)) := by
  show (cfg2.win 9).cut (grid2.coords t) ((dat2 V c).after 9 t) = _
  rw [after2_9]
  unfold out2_9
  rw [View.canon_unit_zero hz]
  simp only [View.ld_unit_zero (S := S4000x64) hz, View.ld_unit_zero (S := S4000x1) hz, View.ld_unit_zero (S := S64x64) hz,
    View.ld_unit_zero (S := S1x64) hz, View.ld_unit_zero (S := S64x1) hz, View.ld_unit_zero (S := S1x1) hz]
  funext j
  obtain ⟨p, r, rfl⟩ : ∃ (p : Fin 4000) (r : Fin 1), j = ix2 p r := ⟨j 0, j 1, eq_ix2 j⟩
  show k2_pay1 (F := Ideal) (k2_pay2 (iblk2 V c 0 t) (iblk2 V c 1 t) (iblk2 V c 2 t) (iblk2 V c 3 t) (iblk2 V c 4 t)
      (iblk2 V c 5 t) (iblk2 V c 6 t) (iblk2 V c 7 t)) (k2_pay3 (iblk2 V c 8 t)) (ix2 p r)
    = Cert.Sage.mlpOut (V c main_v34) (V c main_v35) (V c main_arg3) (V c main_v37) (V c main_v39) (V c main_v41)
        (V c main_v43) (V c main_v42) (V c main_v44) (((cfg2.win 9).blk t).view.emb (ix2 p r))
  rw [emb_out t p r]
  refine (pay_at (iblk2 V c 0 t) (iblk2 V c 1 t) (iblk2 V c 2 t) (iblk2 V c 3 t) (iblk2 V c 4 t)
      (iblk2 V c 5 t) (iblk2 V c 6 t) (iblk2 V c 7 t) (iblk2 V c 8 t) p r).trans ?_
  show _ = Cert.Sage.mlpAt (V c main_v34) (V c main_v35) (V c main_arg3) (V c main_v37) (V c main_v39) (V c main_v41)
        (V c main_v43) (V c main_v42) (V c main_v44) (row t p) r
  unfold Cert.Sage.mlpAt Cert.Sage.hidAt
  simp only [rd_hu V c t, rd_hv V c t, rd_t V c t, rd_wu V c t, rd_wv V c t, rd_wt V c t, rd_b1 V c t, rd_w2 V c t, rd_b2 V c t]

/-- An index of the output array is in grid point t's block iff each coordinate is in the block's range on its axis. -/
theorem mem_blk (t : Fin cfg2.N) (i : S400000x1.Idx) :
    i ∈ ((cfg2.win 9).blk t).view.set ↔ ∀ a : Fin 2, win2_9.index t a * S4000x1.size a ≤ (i a).val ∧ (i a).val < win2_9.index t a * S4000x1.size a + S4000x1.size a := by
  show i ∈ ((View.whole main_v45).slice (win2_9.rect t)).set ↔ _
  rw [View.set_slice_whole, Rect.mem_set_unit]
  exact Iff.rfl

/-- The 100 blocks tile the 400000 queries: row q is in the block of grid point q / 4000, which writes it back. -/
theorem cover (i : S400000x1.Idx) :
    ∃ t : Fin cfg2.N, (cfg2.win 9).flush t = true ∧ i ∈ ((cfg2.win 9).blk t).view.set := by
  have hi0 : (i 0).val < 400000 := (i 0).isLt
  have hi1 : (i 1).val < 1 := (i 1).isLt
  have hN : cfg2.N = 100 := N_2
  have ht : (i 0).val / 4000 < cfg2.N := by rw [hN]; omega
  obtain ⟨-, -, -, -, -, -, -, -, -, -, -, -, -, -, -, -, -, -, e0, e1⟩ := idx_facts ⟨(i 0).val / 4000, ht⟩
  have e0' : win2_9.index ⟨(i 0).val / 4000, ht⟩ (0 : Fin 2) = (i 0).val / 4000 := e0
  refine ⟨⟨(i 0).val / 4000, ht⟩, flush2_9 _, ?_⟩
  rw [mem_blk]
  intro a
  match a with
  | ⟨0, _⟩ =>
    show win2_9.index ⟨(i 0).val / 4000, ht⟩ (0 : Fin 2) * 4000 ≤ (i 0).val
      ∧ (i 0).val < win2_9.index ⟨(i 0).val / 4000, ht⟩ (0 : Fin 2) * 4000 + 4000
    omega
  | ⟨1, _⟩ =>
    show win2_9.index ⟨(i 0).val / 4000, ht⟩ (1 : Fin 2) * 1 ≤ (i 1).val
      ∧ (i 1).val < win2_9.index ⟨(i 0).val / 4000, ht⟩ (1 : Fin 2) * 1 + 1
    omega

/-- THE ARRAY after region 2: the edge scorer of the arrays the region finds, at every query. -/
theorem final2 (c : Dev nD) :
    (dat2 (F := Ideal) V c).arrAt 9 cfg2.N
      = Cert.Sage.mlpOut (V c main_v34) (V c main_v35) (V c main_arg3) (V c main_v37) (V c main_v39) (V c main_v41)
          (V c main_v43) (V c main_v42) (V c main_v44) := by
  exact (dat2 (F := Ideal) V c).arrAt_eq_of_cover 9 _ (fun t _ => flushed_eq V c t) cover

end Cert.KernelIdeal.Region2

end
-- ==== Proof.BridgeLayer1.lean ====
/-
  The first SAGE layer of the reference program is the layer of Spec.lean: the reference divides the summed neighbour
  features by the broadcast of max (count, 1), multiplies by the transposed left weights, adds the bias, then adds the
  product of the node features with the transposed right weights, and rectifies; Spec.lean adds the two products first and the
  bias last. Addition of extended reals is commutative and associative, so the two agree entry by entry.
-/
import proofs.«420615_j64235530879430_2_alg».proof.Proof.Gen.ReferenceIdeal.Read
import proofs.«420615_j64235530879430_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Bridge

open Cert.ReferenceIdeal Cert.ReferenceIdeal.Read Idealize.ShloMosaic Idealize.ShloMosaic.TcCoe Idealize.ShloMosaic.ValueIdx Cert.Sage

/-- The left product's term at feature `k`: the summed feature divided by max (count, 1), times the transposed left weight, is the
    reference's divided array at row `p`, column `k` times its transposed weight at `k`, `q`. The divisor is read through
    its two broadcasts back to the count column; the literal 1.0 stays the word both sides carry. -/
theorem layer1_left (x0 : (⟨S50000x128, .f32⟩ : BufTy).Contents (Elt Ideal)) (x1 : (⟨S2x800000, .i32⟩ : BufTy).Contents (Elt Ideal)) (x4 : (⟨S64x128, .f32⟩ : BufTy).Contents (Elt Ideal))
    (agg : Arr 50000 128) (cnt : Arr 50000 1) (wl : Arr 128 64)
    (hagg : agg = val_main_v13 (F := Ideal) x0 x1)
    (hcnt : ∀ p : Fin 50000, cnt (ix2 p (0 : Fin 1)) = val_main_v17 (F := Ideal) x1 (ix1 p))
    (hwl : ∀ (k : Fin 128) (j : Fin 64), wl (ix2 k j) = x4 (ix2 j k))
    (p : Fin 50000) (q : Fin 64) (k : Fin 128) :
    Ideal.div (agg (ix2 p k)) (max (cnt (ix2 p (0 : Fin 1))) one) * wl (ix2 k q)
      = (val_main_v22 (F := Ideal) x0 x1) (lidx_main_v24 (ix2 p q) k) * (val_main_v23 (F := Ideal) x4) (ridx_main_v24 (ix2 p q) k) := by
  have e1 : lidx_main_v24 (ix2 p q) k = ix2 p k :=
    funext fun a => Fin.ext (by match a with | ⟨0, _⟩ => rfl | ⟨1, _⟩ => rfl)
  have e2 : ridx_main_v24 (ix2 p q) k = ix2 k q :=
    funext fun a => Fin.ext (by match a with | ⟨0, _⟩ => rfl | ⟨1, _⟩ => rfl)
  have e3 : idx_main_v20 (idx_main_v21 (ix2 p k)) = ix1 p :=
    funext fun a => Fin.ext (by match a with | ⟨0, _⟩ => rfl)
  have e4 : idx_main_v23 (ix2 k q) = ix2 q k :=
    funext fun a => Fin.ext (by match a with | ⟨0, _⟩ => rfl | ⟨1, _⟩ => rfl)
  rw [e1, e2, val_main_v22_apply, val_main_v21_apply, val_main_v20_apply, val_main_v19_apply, val_main_v18_apply,
    val_main_cst_3_apply, val_main_v23_apply, e3, e4, hagg, hcnt p, hwl k q]
  rfl

/-- The right product's term at feature `k`: the node feature times the transposed right weight. -/
theorem layer1_right (x0 : (⟨S50000x128, .f32⟩ : BufTy).Contents (Elt Ideal)) (x6 : (⟨S64x128, .f32⟩ : BufTy).Contents (Elt Ideal)) (wr : Arr 128 64)
    (hwr : ∀ (k : Fin 128) (j : Fin 64), wr (ix2 k j) = x6 (ix2 j k))
    (p : Fin 50000) (q : Fin 64) (k : Fin 128) :
    x0 (ix2 p k) * wr (ix2 k q)
      = x0 (lidx_main_v29 (ix2 p q) k) * (val_main_v28 (F := Ideal) x6) (ridx_main_v29 (ix2 p q) k) := by
  have e1 : lidx_main_v29 (ix2 p q) k = ix2 p k :=
    funext fun a => Fin.ext (by match a with | ⟨0, _⟩ => rfl | ⟨1, _⟩ => rfl)
  have e2 : ridx_main_v29 (ix2 p q) k = ix2 k q :=
    funext fun a => Fin.ext (by match a with | ⟨0, _⟩ => rfl | ⟨1, _⟩ => rfl)
  have e4 : idx_main_v28 (ix2 k q) = ix2 q k :=
    funext fun a => Fin.ext (by match a with | ⟨0, _⟩ => rfl | ⟨1, _⟩ => rfl)
  rw [e1, e2, val_main_v28_apply, e4, hwr k q]

/-- Layer 1: for a summed-feature array, a count column, transposed weights and a bias row that hold, entry by entry, what the
    reference's stages hold, the layer of Spec.lean is the reference's first hidden array. -/
theorem layer1 (x0 : (⟨S50000x128, .f32⟩ : BufTy).Contents (Elt Ideal)) (x1 : (⟨S2x800000, .i32⟩ : BufTy).Contents (Elt Ideal)) (x4 : (⟨S64x128, .f32⟩ : BufTy).Contents (Elt Ideal))
    (x5 : (⟨S64, .f32⟩ : BufTy).Contents (Elt Ideal)) (x6 : (⟨S64x128, .f32⟩ : BufTy).Contents (Elt Ideal))
    (agg : Arr 50000 128) (cnt : Arr 50000 1) (wl wr : Arr 128 64) (b : Arr 1 64)
    (hagg : agg = val_main_v13 (F := Ideal) x0 x1)
    (hcnt : ∀ p : Fin 50000, cnt (ix2 p (0 : Fin 1)) = val_main_v17 (F := Ideal) x1 (ix1 p))
    (hwl : ∀ (k : Fin 128) (j : Fin 64), wl (ix2 k j) = x4 (ix2 j k))
    (hwr : ∀ (k : Fin 128) (j : Fin 64), wr (ix2 k j) = x6 (ix2 j k))
    (hb : ∀ j : Fin 64, b (ix2 (0 : Fin 1) j) = x5 (ix1 j)) :
    sageOut agg cnt x0 wl wr b = val_main_v31 (F := Ideal) x0 x1 x4 x5 x6 := by
  funext i
  obtain ⟨p, q, rfl⟩ : ∃ (p : Fin 50000) (q : Fin 64), i = ix2 p q := ⟨i 0, i 1, eq_ix2 i⟩
  show sageAt agg cnt x0 wl wr b p q = _
  unfold sageAt
  -- the reference's entry, one stage at a time: the rectifier, the two additions, the two products, the bias's two broadcasts, the splat 0.0
  rw [val_main_v31_apply, val_main_v30_apply, val_main_v27_apply, val_main_v24_apply, val_main_v29_apply,
    val_main_v26_apply, val_main_v25_apply, val_main_call0_v0_apply, val_main_call0_cst_apply]
  have eb : idx_main_v25 (idx_main_v26 (ix2 p q)) = ix1 q :=
    funext fun a => Fin.ext (by match a with | ⟨0, _⟩ => rfl)
  -- the two sums agree term by term, the bias entry by entry; then (s + t) + c = (s + c) + t in a commutative monoid
  rw [eb, Finset.sum_congr rfl (fun k _ => layer1_left x0 x1 x4 agg cnt wl hagg hcnt hwl p q k),
    Finset.sum_congr rfl (fun k _ => layer1_right x0 x6 wr hwr p q k), hb q, add_right_comm]
  rfl

end Cert.ReferenceIdeal.Bridge

end
-- ==== Proof.BridgeLayer2.lean ====
/-
  The second SAGE layer of the reference program is the layer of Spec.lean over the first hidden array, as for the first layer.
-/
import proofs.«420615_j64235530879430_2_alg».proof.Proof.Gen.ReferenceIdeal.Read
import proofs.«420615_j64235530879430_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Bridge

open Cert.ReferenceIdeal Cert.ReferenceIdeal.Read Idealize.ShloMosaic Idealize.ShloMosaic.TcCoe Idealize.ShloMosaic.ValueIdx Cert.Sage

/-- The left product's term at feature `k`: the summed hidden feature divided by max (count, 1), times the transposed left weight,
    is the reference's divided array at row `p`, column `k` times its transposed weight at `k`, `q`. The divisor is read through
    its two broadcasts back to the count column; the literal 1.0 stays the word both sides carry. -/
theorem layer2_left (x0 : (⟨S50000x128, .f32⟩ : BufTy).Contents (Elt Ideal)) (x1 : (⟨S2x800000, .i32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64x64, .f32⟩ : BufTy).Contents (Elt Ideal))
    (agg : Arr 50000 64) (cnt : Arr 50000 1) (wl : Arr 64 64)
    (hagg : agg = val_main_v41 (F := Ideal) x0 x1 x4 x5 x6)
    (hcnt : ∀ p : Fin 50000, cnt (ix2 p (0 : Fin 1)) = val_main_v45 (F := Ideal) x1 (ix1 p))
    (hwl : ∀ (k : Fin 64) (j : Fin 64), wl (ix2 k j) = x7 (ix2 j k))
    (p : Fin 50000) (q : Fin 64) (k : Fin 64) :
    Ideal.div (agg (ix2 p k)) (max (cnt (ix2 p (0 : Fin 1))) one) * wl (ix2 k q)
      = (val_main_v50 (F := Ideal) x0 x1 x4 x5 x6) (lidx_main_v52 (ix2 p q) k) * (val_main_v51 (F := Ideal) x7) (ridx_main_v52 (ix2 p q) k) := by
  have e1 : lidx_main_v52 (ix2 p q) k = ix2 p k :=
    funext fun a => Fin.ext (by match a with | ⟨0, _⟩ => rfl | ⟨1, _⟩ => rfl)
  have e2 : ridx_main_v52 (ix2 p q) k = ix2 k q :=
    funext fun a => Fin.ext (by match a with | ⟨0, _⟩ => rfl | ⟨1, _⟩ => rfl)
  have e3 : idx_main_v48 (idx_main_v49 (ix2 p k)) = ix1 p :=
    funext fun a => Fin.ext (by match a with | ⟨0, _⟩ => rfl)
  have e4 : idx_main_v51 (ix2 k q) = ix2 q k :=
    funext fun a => Fin.ext (by match a with | ⟨0, _⟩ => rfl | ⟨1, _⟩ => rfl)
  rw [e1, e2, val_main_v50_apply, val_main_v49_apply, val_main_v48_apply, val_main_v47_apply, val_main_v46_apply,
    val_main_cst_9_apply, val_main_v51_apply, e3, e4, hagg, hcnt p, hwl k q]
  rfl

/-- The right product's term at feature `k`: the first hidden array's entry times the transposed right weight. -/
theorem layer2_right (x0 : (⟨S50000x128, .f32⟩ : BufTy).Contents (Elt Ideal)) (x1 : (⟨S2x800000, .i32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x9 : (⟨S64x64, .f32⟩ : BufTy).Contents (Elt Ideal)) (wr : Arr 64 64)
    (hwr : ∀ (k : Fin 64) (j : Fin 64), wr (ix2 k j) = x9 (ix2 j k))
    (p : Fin 50000) (q : Fin 64) (k : Fin 64) :
    (val_main_v31 (F := Ideal) x0 x1 x4 x5 x6) (ix2 p k) * wr (ix2 k q)
      = (val_main_v31 (F := Ideal) x0 x1 x4 x5 x6) (lidx_main_v57 (ix2 p q) k) * (val_main_v56 (F := Ideal) x9) (ridx_main_v57 (ix2 p q) k) := by
  have e1 : lidx_main_v57 (ix2 p q) k = ix2 p k :=
    funext fun a => Fin.ext (by match a with | ⟨0, _⟩ => rfl | ⟨1, _⟩ => rfl)
  have e2 : ridx_main_v57 (ix2 p q) k = ix2 k q :=
    funext fun a => Fin.ext (by match a with | ⟨0, _⟩ => rfl | ⟨1, _⟩ => rfl)
  have e4 : idx_main_v56 (ix2 k q) = ix2 q k :=
    funext fun a => Fin.ext (by match a with | ⟨0, _⟩ => rfl | ⟨1, _⟩ => rfl)
  rw [e1, e2, val_main_v56_apply, e4, hwr k q]

/-- Layer 2: the same over the first hidden array `val_main_v31`. -/
theorem layer2 (x0 : (⟨S50000x128, .f32⟩ : BufTy).Contents (Elt Ideal)) (x1 : (⟨S2x800000, .i32⟩ : BufTy).Contents (Elt Ideal)) (x4 : (⟨S64x128, .f32⟩ : BufTy).Contents (Elt Ideal))
    (x5 : (⟨S64, .f32⟩ : BufTy).Contents (Elt Ideal)) (x6 : (⟨S64x128, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal))
    (agg : Arr 50000 64) (cnt : Arr 50000 1) (wl wr : Arr 64 64) (b : Arr 1 64)
    (hagg : agg = val_main_v41 (F := Ideal) x0 x1 x4 x5 x6)
    (hcnt : ∀ p : Fin 50000, cnt (ix2 p (0 : Fin 1)) = val_main_v45 (F := Ideal) x1 (ix1 p))
    (hwl : ∀ (k : Fin 64) (j : Fin 64), wl (ix2 k j) = x7 (ix2 j k))
    (hwr : ∀ (k : Fin 64) (j : Fin 64), wr (ix2 k j) = x9 (ix2 j k))
    (hb : ∀ j : Fin 64, b (ix2 (0 : Fin 1) j) = x8 (ix1 j)) :
    sageOut agg cnt (val_main_v31 (F := Ideal) x0 x1 x4 x5 x6) wl wr b
      = val_main_v59 (F := Ideal) x0 x1 x4 x5 x6 x7 x8 x9 := by
  funext i
  obtain ⟨p, q, rfl⟩ : ∃ (p : Fin 50000) (q : Fin 64), i = ix2 p q := ⟨i 0, i 1, eq_ix2 i⟩
  show sageAt agg cnt (val_main_v31 (F := Ideal) x0 x1 x4 x5 x6) wl wr b p q = _
  unfold sageAt
  -- the reference's entry, one stage at a time: the rectifier, the two additions, the two products, the bias's two broadcasts, the splat 0.0
  rw [val_main_v59_apply, val_main_v58_apply, val_main_v55_apply, val_main_v52_apply, val_main_v57_apply,
    val_main_v54_apply, val_main_v53_apply, val_main_call1_v0_apply, val_main_call1_cst_apply]
  have eb : idx_main_v53 (idx_main_v54 (ix2 p q)) = ix1 q :=
    funext fun a => Fin.ext (by match a with | ⟨0, _⟩ => rfl)
  -- the two sums agree term by term, the bias entry by entry; then (s + t) + c = (s + c) + t in a commutative monoid
  rw [eb, Finset.sum_congr rfl (fun k _ => layer2_left x0 x1 x4 x5 x6 x7 agg cnt wl hagg hcnt hwl p q k),
    Finset.sum_congr rfl (fun k _ => layer2_right x0 x1 x4 x5 x6 x9 wr hwr p q k), hb q, add_right_comm]
  rfl

end Cert.ReferenceIdeal.Bridge

end
-- ==== Proof.BridgeScorer.lean ====
/-
  The edge scorer of the reference program is the scorer of Spec.lean. The reference joins the two gathered endpoint rows
  and the edge feature into one row of 129 entries and multiplies by the transposed first weight matrix: a sum over 129
  terms, which splits into the sum over the first 64 (the first endpoint against columns 0 … 63 of the weights), the sum
  over the next 64 (the second endpoint against columns 64 … 127) and the last term (the edge feature against column
  128). Sums of extended reals split and regroup freely, so the two agree entry by entry.
-/
import proofs.«420615_j64235530879430_2_alg».proof.Proof.Gen.ReferenceIdeal.Read
import proofs.«420615_j64235530879430_2_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

set_option maxRecDepth 16384

noncomputable section

namespace Cert.ReferenceIdeal.Bridge

open Cert.ReferenceIdeal Cert.ReferenceIdeal.Read Idealize.ShloMosaic Idealize.ShloMosaic.TcCoe Idealize.ShloMosaic.ValueIdx Cert.Sage

/-- A sum of 129 terms is the sum of its first 64, its next 64 and its last one: sums in a commutative monoid split at
    any cut. -/
theorem sum_fin129 {M : Type} [AddCommMonoid M] (f : Fin 129 → M) :
    ∑ k : Fin 129, f k
      = ((∑ k : Fin 64, f ⟨k.val, by omega⟩) + ∑ k : Fin 64, f ⟨64 + k.val, by omega⟩) + f ⟨128, by omega⟩ := by
  have h1 : ∑ k : Fin 129, f k = (∑ k : Fin 128, f k.castSucc) + f (Fin.last 128) :=
    Fin.sum_univ_castSucc (n := 128) f
  have h2 : (∑ k : Fin 128, f k.castSucc)
      = (∑ k : Fin 64, f (Fin.castAdd 64 k).castSucc) + ∑ k : Fin 64, f (Fin.natAdd 64 k).castSucc :=
    Fin.sum_univ_add (a := 64) (b := 64) (fun k : Fin (64 + 64) => f (Fin.castSucc (n := 128) k))
  rw [h1, h2]
  rfl

/-! ## The joined row [first endpoint | second endpoint | edge feature] read in its three ranges -/

section Joined
variable {α : Type} (y0 y1 : (⟨2, ![400000, 64]⟩ : Shape).Idx → α) (y2 : (⟨2, ![400000, 1]⟩ : Shape).Idx → α)
  (h : Shape.Concatenates [(⟨2, ![400000, 64]⟩ : Shape), ⟨2, ![400000, 64]⟩, ⟨2, ![400000, 1]⟩] ⟨2, ![400000, 129]⟩ 1)

/-- Columns 0 … 63 of the joined row are the first piece. -/
theorem joined_fst (p : Fin 400000) (k : Fin 64) :
    concatenate ⟨2, ![400000, 129]⟩ 1 [⟨⟨2, ![400000, 64]⟩, y0⟩, ⟨⟨2, ![400000, 64]⟩, y1⟩, ⟨⟨2, ![400000, 1]⟩, y2⟩] h
        (ix2 p (⟨k.val, by omega⟩ : Fin 129)) = y0 (ix2 p k) :=
  concatenate_apply_piece (t := ⟨2, ![400000, 129]⟩) (1 : Fin 2) [⟨⟨2, ![400000, 64]⟩, y0⟩, ⟨⟨2, ![400000, 64]⟩, y1⟩, ⟨⟨2, ![400000, 1]⟩, y2⟩] h
    (ix2 p (⟨k.val, by omega⟩ : Fin 129)) 0 (by show (0 : Nat) < 3; decide) ⟨2, ![400000, 64]⟩ y0 rfl rfl 0 rfl (ix2 p k)
    (fun b => match b with
      | ⟨0, _⟩ => fun _ => rfl
      | ⟨1, _⟩ => fun hb => absurd (Fin.ext rfl) hb)
    (Nat.zero_add _)

/-- Columns 64 … 127 of the joined row are the second piece. -/
theorem joined_snd (p : Fin 400000) (k : Fin 64) :
    concatenate ⟨2, ![400000, 129]⟩ 1 [⟨⟨2, ![400000, 64]⟩, y0⟩, ⟨⟨2, ![400000, 64]⟩, y1⟩, ⟨⟨2, ![400000, 1]⟩, y2⟩] h
        (ix2 p (⟨64 + k.val, by omega⟩ : Fin 129)) = y1 (ix2 p k) :=
  concatenate_apply_piece (t := ⟨2, ![400000, 129]⟩) (1 : Fin 2) [⟨⟨2, ![400000, 64]⟩, y0⟩, ⟨⟨2, ![400000, 64]⟩, y1⟩, ⟨⟨2, ![400000, 1]⟩, y2⟩] h
    (ix2 p (⟨64 + k.val, by omega⟩ : Fin 129)) 1 (by show (1 : Nat) < 3; decide) ⟨2, ![400000, 64]⟩ y1 rfl rfl 64 rfl (ix2 p k)
    (fun b => match b with
      | ⟨0, _⟩ => fun _ => rfl
      | ⟨1, _⟩ => fun hb => absurd (Fin.ext rfl) hb)
    rfl

/-- Column 128 of the joined row is the third piece's one column. -/
theorem joined_last (p : Fin 400000) :
    concatenate ⟨2, ![400000, 129]⟩ 1 [⟨⟨2, ![400000, 64]⟩, y0⟩, ⟨⟨2, ![400000, 64]⟩, y1⟩, ⟨⟨2, ![400000, 1]⟩, y2⟩] h
        (ix2 p (⟨128, by omega⟩ : Fin 129)) = y2 (ix2 p (0 : Fin 1)) :=
  concatenate_apply_piece (t := ⟨2, ![400000, 129]⟩) (1 : Fin 2) [⟨⟨2, ![400000, 64]⟩, y0⟩, ⟨⟨2, ![400000, 64]⟩, y1⟩, ⟨⟨2, ![400000, 1]⟩, y2⟩] h
    (ix2 p (⟨128, by omega⟩ : Fin 129)) 2 (by show (2 : Nat) < 3; decide) ⟨2, ![400000, 1]⟩ y2 rfl rfl 128 rfl (ix2 p (0 : Fin 1))
    (fun b => match b with
      | ⟨0, _⟩ => fun _ => rfl
      | ⟨1, _⟩ => fun hb => absurd (Fin.ext rfl) hb)
    rfl

end Joined

/-! ## The reference's stages read at explicit coordinates -/

/-- The transposed first weight matrix at (k, j) is the matrix at (j, k). -/
theorem v79_at (x10 : (⟨S64x129, .f32⟩ : BufTy).Contents (Elt Ideal)) (k : Fin 129) (j : Fin 64) :
    val_main_v79 (F := Ideal) x10 (ix2 k j) = x10 (ix2 j k) := by
  rw [val_main_v79_apply]
  exact congrArg x10 (funext fun a => Fin.ext (by match a with | ⟨0, _⟩ => rfl | ⟨1, _⟩ => rfl))

/-- The first bias broadcast over the rows, at (p, j), is the bias at j. -/
theorem v82_at (x11 : (⟨S64, .f32⟩ : BufTy).Contents (Elt Ideal)) (p : Fin 400000) (j : Fin 64) :
    val_main_v82 (F := Ideal) x11 (ix2 p j) = x11 (ix1 j) := by
  rw [val_main_v82_apply, val_main_v81_apply]
  exact congrArg x11 (funext fun a => Fin.ext (by match a with | ⟨0, _⟩ => rfl))

/-- The splat of the zero word reads as that word. -/
theorem relu_zero_at (p : Fin 400000) (j : Fin 64) :
    val_main_call2_v0 (F := Ideal) (ix2 p j) = Cert.Sage.zero := by
  rw [val_main_call2_v0_apply, val_main_call2_cst_apply]
  rfl

/-- The transposed second weight row at (j, 0) is the row at (0, j). -/
theorem v85_at (x12 : (⟨S1x64, .f32⟩ : BufTy).Contents (Elt Ideal)) (j : Fin 64) :
    val_main_v85 (F := Ideal) x12 (ix2 j (0 : Fin 1)) = x12 (ix2 (0 : Fin 1) j) := by
  rw [val_main_v85_apply]
  exact congrArg x12 (funext fun a => Fin.ext (by match a with | ⟨0, _⟩ => rfl | ⟨1, _⟩ => rfl))

/-- The last bias broadcast over the rows is the bias's one entry. -/
theorem v88_at (x13 : (⟨S1, .f32⟩ : BufTy).Contents (Elt Ideal)) (p : Fin 400000) :
    val_main_v88 (F := Ideal) x13 (ix2 p (0 : Fin 1)) = x13 (ix1 (0 : Fin 1)) := by
  rw [val_main_v88_apply, val_main_v87_apply]
  exact congrArg x13 (funext fun a => Fin.ext (by match a with | ⟨0, _⟩ => rfl))

/-- The joined row in its three ranges, as the reference's own stages. -/
theorem v78_fst (x0 : (⟨S50000x128, .f32⟩ : BufTy).Contents (Elt Ideal)) (x1 : (⟨S2x800000, .i32⟩ : BufTy).Contents (Elt Ideal)) (x2 : (⟨S400000x2, .i32⟩ : BufTy).Contents (Elt Ideal)) (x3 : (⟨S400000x1, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (p : Fin 400000) (k : Fin 64) :
    val_main_v78 (F := Ideal) x0 x1 x2 x3 x4 x5 x6 x7 x8 x9 (ix2 p (⟨k.val, by omega⟩ : Fin 129))
      = val_main_v70 (F := Ideal) x0 x1 x2 x4 x5 x6 x7 x8 x9 (ix2 p k) := by
  unfold val_main_v78
  exact joined_fst _ _ _ _ p k

theorem v78_snd (x0 : (⟨S50000x128, .f32⟩ : BufTy).Contents (Elt Ideal)) (x1 : (⟨S2x800000, .i32⟩ : BufTy).Contents (Elt Ideal)) (x2 : (⟨S400000x2, .i32⟩ : BufTy).Contents (Elt Ideal)) (x3 : (⟨S400000x1, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (p : Fin 400000) (k : Fin 64) :
    val_main_v78 (F := Ideal) x0 x1 x2 x3 x4 x5 x6 x7 x8 x9 (ix2 p (⟨64 + k.val, by omega⟩ : Fin 129))
      = val_main_v77 (F := Ideal) x0 x1 x2 x4 x5 x6 x7 x8 x9 (ix2 p k) := by
  unfold val_main_v78
  exact joined_snd _ _ _ _ p k

theorem v78_last (x0 : (⟨S50000x128, .f32⟩ : BufTy).Contents (Elt Ideal)) (x1 : (⟨S2x800000, .i32⟩ : BufTy).Contents (Elt Ideal)) (x2 : (⟨S400000x2, .i32⟩ : BufTy).Contents (Elt Ideal)) (x3 : (⟨S400000x1, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (p : Fin 400000) :
    val_main_v78 (F := Ideal) x0 x1 x2 x3 x4 x5 x6 x7 x8 x9 (ix2 p (⟨128, by omega⟩ : Fin 129)) = x3 (ix2 p (0 : Fin 1)) := by
  unfold val_main_v78
  exact joined_last _ _ _ _ p

/-- The first product at (p, j): the joined row p against row j of the first weight matrix, a sum of 129 terms. -/
theorem v80_at (x0 : (⟨S50000x128, .f32⟩ : BufTy).Contents (Elt Ideal)) (x1 : (⟨S2x800000, .i32⟩ : BufTy).Contents (Elt Ideal)) (x2 : (⟨S400000x2, .i32⟩ : BufTy).Contents (Elt Ideal)) (x3 : (⟨S400000x1, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64x129, .f32⟩ : BufTy).Contents (Elt Ideal)) (p : Fin 400000) (j : Fin 64) :
    val_main_v80 (F := Ideal) x0 x1 x2 x3 x4 x5 x6 x7 x8 x9 x10 (ix2 p j)
      = ∑ k : Fin 129, val_main_v78 (F := Ideal) x0 x1 x2 x3 x4 x5 x6 x7 x8 x9 (ix2 p k) * x10 (ix2 j k) := by
  rw [val_main_v80_apply]
  refine Finset.sum_congr rfl fun k _ => ?_
  have e1 : lidx_main_v80 (ix2 p j) k = ix2 p k :=
    funext fun a => Fin.ext (by match a with | ⟨0, _⟩ => rfl | ⟨1, _⟩ => rfl)
  have e2 : ridx_main_v80 (ix2 p j) k = ix2 k j :=
    funext fun a => Fin.ext (by match a with | ⟨0, _⟩ => rfl | ⟨1, _⟩ => rfl)
  rw [e1, e2, v79_at]

/-- The hidden unit: the reference's rectified first layer at (p, j) is Spec.lean's hidden unit, the sum over the joined
    row cut at 64 and 128 and each part read from its own piece and its own slice of the weights. -/
theorem v84_at (x0 : (⟨S50000x128, .f32⟩ : BufTy).Contents (Elt Ideal)) (x1 : (⟨S2x800000, .i32⟩ : BufTy).Contents (Elt Ideal)) (x2 : (⟨S400000x2, .i32⟩ : BufTy).Contents (Elt Ideal)) (x3 : (⟨S400000x1, .f32⟩ : BufTy).Contents (Elt Ideal)) (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64x129, .f32⟩ : BufTy).Contents (Elt Ideal)) (x11 : (⟨S64, .f32⟩ : BufTy).Contents (Elt Ideal))
    (wu wv : Arr 64 64) (wt : Arr 1 64) (b1 : Arr 1 64)
    (hwu : ∀ (k : Fin 64) (j : Fin 64), wu (ix2 k j) = x10 (ix2 j (⟨k.val, by omega⟩ : Fin 129)))
    (hwv : ∀ (k : Fin 64) (j : Fin 64), wv (ix2 k j) = x10 (ix2 j (⟨64 + k.val, by omega⟩ : Fin 129)))
    (hwt : ∀ j : Fin 64, wt (ix2 (0 : Fin 1) j) = x10 (ix2 j (⟨128, by omega⟩ : Fin 129)))
    (hb1 : ∀ j : Fin 64, b1 (ix2 (0 : Fin 1) j) = x11 (ix1 j))
    (p : Fin 400000) (j : Fin 64) :
    val_main_v84 (F := Ideal) x0 x1 x2 x3 x4 x5 x6 x7 x8 x9 x10 x11 (ix2 p j)
      = hidAt (val_main_v70 (F := Ideal) x0 x1 x2 x4 x5 x6 x7 x8 x9) (val_main_v77 (F := Ideal) x0 x1 x2 x4 x5 x6 x7 x8 x9) x3 wu wv wt b1 p j := by
  rw [val_main_v84_apply, val_main_v83_apply, v80_at, v82_at, relu_zero_at, Ideal.maximumf_def, Ideal.addf_def,
    sum_fin129]
  unfold hidAt
  have s1 : (∑ k : Fin 64, val_main_v70 (F := Ideal) x0 x1 x2 x4 x5 x6 x7 x8 x9 (ix2 p k) * wu (ix2 k j))
      = ∑ k : Fin 64, val_main_v78 (F := Ideal) x0 x1 x2 x3 x4 x5 x6 x7 x8 x9 (ix2 p (⟨k.val, by omega⟩ : Fin 129))
          * x10 (ix2 j (⟨k.val, by omega⟩ : Fin 129)) :=
    Finset.sum_congr rfl fun k _ => by rw [hwu k j, v78_fst]
  have s2 : (∑ k : Fin 64, val_main_v77 (F := Ideal) x0 x1 x2 x4 x5 x6 x7 x8 x9 (ix2 p k) * wv (ix2 k j))
      = ∑ k : Fin 64, val_main_v78 (F := Ideal) x0 x1 x2 x3 x4 x5 x6 x7 x8 x9 (ix2 p (⟨64 + k.val, by omega⟩ : Fin 129))
          * x10 (ix2 j (⟨64 + k.val, by omega⟩ : Fin 129)) :=
    Finset.sum_congr rfl fun k _ => by rw [hwv k j, v78_snd]
  have s3 : (∑ k : Fin 1, x3 (ix2 p k) * wt (ix2 k j))
      = val_main_v78 (F := Ideal) x0 x1 x2 x3 x4 x5 x6 x7 x8 x9 (ix2 p (⟨128, by omega⟩ : Fin 129))
          * x10 (ix2 j (⟨128, by omega⟩ : Fin 129)) := by
    rw [Fin.sum_univ_one, hwt j, v78_last]
  rw [s1, s2, s3, hb1 j]

/-- The scorer: for endpoint arrays equal to the reference's two gathers and weight slices that hold, entry by entry, the
    columns of the first weight matrix they were cut from, the scorer of Spec.lean is the reference's last stage before
    its reshape. -/
theorem scorer (x0 : (⟨S50000x128, .f32⟩ : BufTy).Contents (Elt Ideal)) (x1 : (⟨S2x800000, .i32⟩ : BufTy).Contents (Elt Ideal)) (x2 : (⟨S400000x2, .i32⟩ : BufTy).Contents (Elt Ideal)) (x3 : (⟨S400000x1, .f32⟩ : BufTy).Contents (Elt Ideal))
    (x4 : (⟨S64x128, .f32⟩ : BufTy).Contents (Elt Ideal)) (x5 : (⟨S64, .f32⟩ : BufTy).Contents (Elt Ideal)) (x6 : (⟨S64x128, .f32⟩ : BufTy).Contents (Elt Ideal)) (x7 : (⟨S64x64, .f32⟩ : BufTy).Contents (Elt Ideal))
    (x8 : (⟨S64, .f32⟩ : BufTy).Contents (Elt Ideal)) (x9 : (⟨S64x64, .f32⟩ : BufTy).Contents (Elt Ideal)) (x10 : (⟨S64x129, .f32⟩ : BufTy).Contents (Elt Ideal)) (x11 : (⟨S64, .f32⟩ : BufTy).Contents (Elt Ideal))
    (x12 : (⟨S1x64, .f32⟩ : BufTy).Contents (Elt Ideal)) (x13 : (⟨S1, .f32⟩ : BufTy).Contents (Elt Ideal))
    (hu hv : Arr 400000 64) (wu wv : Arr 64 64) (wt : Arr 1 64) (b1 : Arr 1 64) (w2 : Arr 64 1) (b2 : Arr 1 1)
    (hhu : hu = val_main_v70 (F := Ideal) x0 x1 x2 x4 x5 x6 x7 x8 x9)
    (hhv : hv = val_main_v77 (F := Ideal) x0 x1 x2 x4 x5 x6 x7 x8 x9)
    (hwu : ∀ (k : Fin 64) (j : Fin 64), wu (ix2 k j) = x10 (ix2 j (⟨k.val, by omega⟩ : Fin 129)))
    (hwv : ∀ (k : Fin 64) (j : Fin 64), wv (ix2 k j) = x10 (ix2 j (⟨64 + k.val, by omega⟩ : Fin 129)))
    (hwt : ∀ j : Fin 64, wt (ix2 (0 : Fin 1) j) = x10 (ix2 j (⟨128, by omega⟩ : Fin 129)))
    (hb1 : ∀ j : Fin 64, b1 (ix2 (0 : Fin 1) j) = x11 (ix1 j))
    (hw2 : ∀ j : Fin 64, w2 (ix2 j (0 : Fin 1)) = x12 (ix2 (0 : Fin 1) j))
    (hb2 : b2 (ix2 (0 : Fin 1) (0 : Fin 1)) = x13 (ix1 (0 : Fin 1))) :
    mlpOut hu hv x3 wu wv wt b1 w2 b2
      = val_main_v89 (F := Ideal) x0 x1 x2 x3 x4 x5 x6 x7 x8 x9 x10 x11 x12 x13 := by
  subst hhu hhv
  funext i
  obtain ⟨p, r, rfl⟩ : ∃ (p : Fin 400000) (r : Fin 1), i = ix2 p r := ⟨i 0, i 1, eq_ix2 i⟩
  obtain rfl : r = 0 := Subsingleton.elim _ _
  show mlpAt _ _ x3 wu wv wt b1 w2 b2 p (0 : Fin 1) = _
  rw [val_main_v89_apply, val_main_v86_apply, v88_at, Ideal.addf_def]
  unfold mlpAt
  rw [hb2]
  refine congrArg (· + x13 (ix1 (0 : Fin 1))) (Finset.sum_congr rfl fun j _ => ?_)
  have e1 : lidx_main_v86 (ix2 p (0 : Fin 1)) j = ix2 p j :=
    funext fun a => Fin.ext (by match a with | ⟨0, _⟩ => rfl | ⟨1, _⟩ => rfl)
  have e2 : ridx_main_v86 (ix2 p (0 : Fin 1)) j = ix2 j (0 : Fin 1) :=
    funext fun a => Fin.ext (by match a with | ⟨0, _⟩ => rfl | ⟨1, _⟩ => rfl)
  rw [e1, e2, v85_at, hw2 j, v84_at x0 x1 x2 x3 x4 x5 x6 x7 x8 x9 x10 x11 wu wv wt b1 hwu hwv hwt hb1 p j]

end Cert.ReferenceIdeal.Bridge

end
-- ==== Proof.PreDecode.lean ====
/-
  The two index conjuncts of the precondition, read back: every source node number (row 0 of the edge list) and every
  entry of the query pairs is a node number, 0 ≤ · < 50000. The printed predicate is a conjunction (an `and` chain) whose
  last two conjuncts are the `jnp.all` of those two range tests.
-/
import proofs.«420615_j64235530879430_2_alg».proof.Pre_finite_inputs
import Idealize.ShloMosaic.Lib.ValueIdx
import Idealize.ShloMosaic.Lib.Pipeline.Value
import Idealize.ShloMosaic.Lib.Affine
import Idealize.ShloMosaic.Lib.ReduceAll
import Idealize.ShloMosaic.Lib.StableHlo.Predicate

set_option maxRecDepth 16384

noncomputable section

namespace Cert.Pre_finite_inputs.Decode

open Cert.Pre_finite_inputs Idealize.ShloMosaic Idealize.ShloMosaic.ValueIdx

variable [Cert.Pre_finite_inputs.Facts]

/-- A RANGE TEST UNDER "ALL", READ BACK. When the conjunction over every entry of (v ≥ 0) and (v < 50000) is the bit 1,
    every entry of `v` lies in [0, 50000): the conjunction is 1 only if each entry's bit is, an entry's bit is the
    `and` of its two comparisons, and each comparison that answers 1 is the order of the signed values
    (the two constants read 0 and 50000 at every index). -/
theorem range_of_all {s : Shape} {axes : List (Fin s.rank)} (hb : S_.BroadcastsInDim s (![] : Fin 0 → Fin s.rank))
    (hr : s.ReducesTo axes S_) (hu : 0 < S_.numel) (v : IVec s 32)
    (h : Host.reduce IntOp.andi
          (andi (cmpi .sge v (broadcastInDim s ![] hb (constantI S_ 32 0#32)))
            (cmpi .slt v (broadcastInDim s ![] hb (constantI S_ 32 50000#32))))
          (constantI S_ 1 1#1) hr hu ix0 = 1#1) (i : s.Idx) :
    0 ≤ (v i).toInt ∧ (v i).toInt < 50000 := by
  haveI : Subsingleton S_.Idx := ⟨fun a b => funext fun d => d.elim0⟩
  have e0 : (0#32 : BitVec 32).toInt = 0 := by decide
  have e1 : (50000#32 : BitVec 32).toInt = 50000 := by decide
  obtain ⟨hge, hlt⟩ := IntOp.andi_eq_one.1 (Host.reduce_andi_all _ _ hr hu ix0 h i)
  have hge' : (0#32 : BitVec 32).toInt ≤ (v i).toInt := IntOp.cmpi_sge.1 hge
  have hlt' : (v i).toInt < (50000#32 : BitVec 32).toInt := IntOp.cmpi_slt.1 hlt
  omega

/-- Row 0 of the edge list as a flat vector (the slice [0:1, :] of the [2, 800000] array, reshaped to [800000]) reads,
    at `e`, the array at (0, e): the reshape keeps the row-major position, 0 · 800000 + e = e, and the slice starts at
    the origin. -/
theorem row0_read (a1 : IVec S2x800000 32) (e : Fin 800000) :
    shapeCast S800000 (extractStridedSlice S1x800000 ![0, 0] a1 Facts.slices_S2x800000_S1x800000_0_0)
        Facts.shapeCasts_S1x800000_S800000 (ix1 e) = a1 (ix2 (0 : Fin 2) e) := by
  refine (shapeCast_apply _ Facts.shapeCasts_S1x800000_S800000 (ix1 e) (ix2 (0 : Fin 1) e) (by
    rw [Shape.rowMajor_val_two, Shape.rowMajor_val_one]; show 0 * 800000 + e.val = e.val; omega)).trans ?_
  exact extractStridedSlice_apply ![0, 0] a1 Facts.slices_S2x800000_S1x800000_0_0 (ix2 (0 : Fin 1) e) (ix2 (0 : Fin 2) e)
    (fun a => match a with
      | ⟨0, _⟩ => by show (0 : Nat) = 0 + 0; omega
      | ⟨1, _⟩ => by show e.val = 0 + e.val; omega)

/-- Both range facts at once. The predicate at its one index is ((the twelve finiteness conjuncts ∧ the source-row
    test) ∧ the query-pair test); the two outer conjunctions are split, the finiteness part is left as it is, and each
    of the two tests is a range test under "all". -/
theorem ranges (a0 : FVec Ideal S50000x128 .f32) (a1 : IVec S2x800000 32) (a2 : IVec S400000x2 32) (a3 : FVec Ideal S400000x1 .f32)
    (a4 : FVec Ideal S64x128 .f32) (a5 : FVec Ideal S64 .f32) (a6 : FVec Ideal S64x128 .f32) (a7 : FVec Ideal S64x64 .f32)
    (a8 : FVec Ideal S64 .f32) (a9 : FVec Ideal S64x64 .f32) (a10 : FVec Ideal S64x129 .f32) (a11 : FVec Ideal S64 .f32)
    (a12 : FVec Ideal S1x64 .f32) (a13 : FVec Ideal S1 .f32)
    (h : Cert.Pre_finite_inputs.fn (F := Ideal) a0 a1 a2 a3 a4 a5 a6 a7 a8 a9 a10 a11 a12 a13 = fun _ => 1#1) :
    (∀ e : Fin 800000, 0 ≤ (a1 (ix2 (0 : Fin 2) e)).toInt ∧ (a1 (ix2 (0 : Fin 2) e)).toInt < 50000)
      ∧ ∀ (q : Fin 400000) (k : Fin 2), 0 ≤ (a2 (ix2 q k)).toInt ∧ (a2 (ix2 q k)).toInt < 50000 := by
  have h0 := congrFun h ValueIdx.ix0
  dsimp only [fn, fn_part1, fn_part2, fn_part3, fn_part4] at h0
  obtain ⟨h69, h75⟩ := IntOp.andi_eq_one.1 h0
  obtain ⟨-, h68⟩ := IntOp.andi_eq_one.1 h69
  refine ⟨fun e => ?_, fun q k => range_of_all _ _ _ _ h75 (ix2 q k)⟩
  have hr := range_of_all _ _ _ _ h68 (ix1 e)
  rwa [row0_read a1 e] at hr

/-- Every source node number (row 0 of the edge list) is in [0, 50000). -/
theorem src_range (a0 : FVec Ideal S50000x128 .f32) (a1 : IVec S2x800000 32) (a2 : IVec S400000x2 32) (a3 : FVec Ideal S400000x1 .f32)
    (a4 : FVec Ideal S64x128 .f32) (a5 : FVec Ideal S64 .f32) (a6 : FVec Ideal S64x128 .f32) (a7 : FVec Ideal S64x64 .f32)
    (a8 : FVec Ideal S64 .f32) (a9 : FVec Ideal S64x64 .f32) (a10 : FVec Ideal S64x129 .f32) (a11 : FVec Ideal S64 .f32)
    (a12 : FVec Ideal S1x64 .f32) (a13 : FVec Ideal S1 .f32)
    (h : Cert.Pre_finite_inputs.fn (F := Ideal) a0 a1 a2 a3 a4 a5 a6 a7 a8 a9 a10 a11 a12 a13 = fun _ => 1#1)
    (e : Fin 800000) :
    0 ≤ (a1 (ix2 (0 : Fin 2) e)).toInt ∧ (a1 (ix2 (0 : Fin 2) e)).toInt < 50000 :=
  (ranges a0 a1 a2 a3 a4 a5 a6 a7 a8 a9 a10 a11 a12 a13 h).1 e

/-- Every entry of the query pairs is in [0, 50000). -/
theorem uv_range (a0 : FVec Ideal S50000x128 .f32) (a1 : IVec S2x800000 32) (a2 : IVec S400000x2 32) (a3 : FVec Ideal S400000x1 .f32)
    (a4 : FVec Ideal S64x128 .f32) (a5 : FVec Ideal S64 .f32) (a6 : FVec Ideal S64x128 .f32) (a7 : FVec Ideal S64x64 .f32)
    (a8 : FVec Ideal S64 .f32) (a9 : FVec Ideal S64x64 .f32) (a10 : FVec Ideal S64x129 .f32) (a11 : FVec Ideal S64 .f32)
    (a12 : FVec Ideal S1x64 .f32) (a13 : FVec Ideal S1 .f32)
    (h : Cert.Pre_finite_inputs.fn (F := Ideal) a0 a1 a2 a3 a4 a5 a6 a7 a8 a9 a10 a11 a12 a13 = fun _ => 1#1)
    (q : Fin 400000) (k : Fin 2) :
    0 ≤ (a2 (ix2 q k)).toInt ∧ (a2 (ix2 q k)).toInt < 50000 :=
  (ranges a0 a1 a2 a3 a4 a5 a6 a7 a8 a9 a10 a11 a12 a13 h).2 q k

end Cert.Pre_finite_inputs.Decode

end
-- ==== Proof.KernelValue.lean ====
/-
  The kernel program's result as a function of its arguments, and that function is the reference's.

  The run of the kernel program ends with the result array at what the fold through @main's stretches and regions leaves
  it. Read backwards: the result is the flattened output of region 2, the edge scorer of the arrays region 2 finds;
  those are two takes of region 1's output at the query endpoints, the edge features, and slices of the scorer weights;
  region 1's output is the second SAGE layer of the summed takes of region 0's output; region 0's output is the first
  layer of the summed takes of the node features. Under the precondition every row number taken is a node number, so
  each filling take is the plain gather, and then every array a region finds is, entry by entry, the stage of the
  reference program that computes it: by the three comparisons of the layers, the kernel's result is the reference's.
-/
import proofs.«420615_j64235530879430_2_alg».proof.Defs
import proofs.«420615_j64235530879430_2_alg».proof.Proof.Gen.Pre_finite_inputs
import proofs.«420615_j64235530879430_2_alg».proof.Proof.RunMain
import proofs.«420615_j64235530879430_2_alg».proof.Proof.KernelHost
import proofs.«420615_j64235530879430_2_alg».proof.Proof.Region0
import proofs.«420615_j64235530879430_2_alg».proof.Proof.Region1
import proofs.«420615_j64235530879430_2_alg».proof.Proof.Region2
import proofs.«420615_j64235530879430_2_alg».proof.Proof.BridgeLayer1
import proofs.«420615_j64235530879430_2_alg».proof.Proof.BridgeLayer2
import proofs.«420615_j64235530879430_2_alg».proof.Proof.BridgeScorer
import proofs.«420615_j64235530879430_2_alg».proof.Proof.PreDecode
import proofs.«420615_j64235530879430_2_alg».proof.Proof.LibTakeFill

set_option maxRecDepth 16384

noncomputable section

namespace Cert.Proof.KernelValue

open Cert.KernelIdeal Cert.KernelIdeal.Gen Cert.KernelIdeal.HostRead Idealize.ShloMosaic Idealize.ShloMosaic.TcCoe
open Idealize.ShloMosaic.ValueIdx Idealize.SL.Sem

-- the comparisons below are between operation trees: the gathers, sums and reductions stay closed
attribute [local irreducible] Host.reduce Host.gather Host.scatterAdd

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)
local notation "x12" => m ((c : Thread nD τ).loc main_arg12)
local notation "x13" => m ((c : Thread nD τ).loc main_arg13)

/-! ## The arguments and the two rows of the edge list, at every boundary where they are read -/

/-- The arguments still read after region 0 (none of them is an array a region writes or stages before region 2). -/
abbrev lateArgs : List (Ref sig .tc) :=
  [main_arg2, main_arg3, main_arg7, main_arg8, main_arg9, main_arg10, main_arg11, main_arg12, main_arg13]

theorem late_sub : ∀ r ∈ lateArgs, r ∈ argRefs := by decide
theorem late_ne0 : ∀ r ∈ lateArgs, ∀ w, Pipeline.arrRef spec0 w ≠ r := by decide
theorem late_ne1 : ∀ r ∈ lateArgs, ∀ w, Pipeline.arrRef spec1 w ≠ r := by decide

theorem a0 (r : Ref sig .tc) (hr : r ∈ argRefs) : W0 m ρ c (Proc.devRef .tc r) = m ((c : Thread nD τ).loc r) := rfl
theorem a1 (r : Ref sig .tc) (hr : r ∈ argRefs) : W1 m ρ c (Proc.devRef .tc r) = m ((c : Thread nD τ).loc r) :=
  (s0_args (W0 m ρ c) r hr).trans (a0 m ρ c r hr)
theorem a2 (r : Ref sig .tc) (hr : r ∈ argRefs) : W2 m ρ c (Proc.devRef .tc r) = m ((c : Thread nD τ).loc r) :=
  (s01_args (W1 m ρ c) r hr).trans (a1 m ρ c r hr)
theorem a3 (r : Ref sig .tc) (hr : r ∈ argRefs) : W3 m ρ c (Proc.devRef .tc r) = m ((c : Thread nD τ).loc r) :=
  (s02_args (W2 m ρ c) r hr).trans (a2 m ρ c r hr)
theorem a4 (r : Ref sig .tc) (hr : r ∈ lateArgs) : W4 m ρ c (Proc.devRef .tc r) = m ((c : Thread nD τ).loc r) :=
  (W4_of_ne m ρ c r (late_ne0 r hr)).trans (a3 m ρ c r (late_sub r hr))
theorem a5 (r : Ref sig .tc) (hr : r ∈ lateArgs) : W5 m ρ c (Proc.devRef .tc r) = m ((c : Thread nD τ).loc r) :=
  (s1_args (W4 m ρ c) r (late_sub r hr)).trans (a4 m ρ c r hr)
theorem a6 (r : Ref sig .tc) (hr : r ∈ lateArgs) : W6 m ρ c (Proc.devRef .tc r) = m ((c : Thread nD τ).loc r) :=
  (s11_args (W5 m ρ c) r (late_sub r hr)).trans (a5 m ρ c r hr)
theorem a7 (r : Ref sig .tc) (hr : r ∈ lateArgs) : W7 m ρ c (Proc.devRef .tc r) = m ((c : Thread nD τ).loc r) :=
  (W7_of_ne m ρ c r (late_ne1 r hr)).trans (a6 m ρ c r hr)
theorem a8 (r : Ref sig .tc) (hr : r ∈ lateArgs) : W8 m ρ c (Proc.devRef .tc r) = m ((c : Thread nD τ).loc r) :=
  (s2_args (W7 m ρ c) r (late_sub r hr)).trans (a7 m ρ c r hr)
theorem a9 (r : Ref sig .tc) (hr : r ∈ lateArgs) : W9 m ρ c (Proc.devRef .tc r) = m ((c : Thread nD τ).loc r) :=
  (s21_args (W8 m ρ c) r (late_sub r hr)).trans (a8 m ρ c r hr)
theorem a10 (r : Ref sig .tc) (hr : r ∈ lateArgs) : W10 m ρ c (Proc.devRef .tc r) = m ((c : Thread nD τ).loc r) :=
  (s22_args (W9 m ρ c) r (late_sub r hr)).trans (a9 m ρ c r hr)
theorem a11 (r : Ref sig .tc) (hr : r ∈ lateArgs) : W11 m ρ c (Proc.devRef .tc r) = m ((c : Thread nD τ).loc r) :=
  (s23_args (W10 m ρ c) r (late_sub r hr)).trans (a10 m ρ c r hr)

theorem src1 : W1 m ρ c (Proc.devRef .tc main_v1) = srcOf x1 := s0_v1 (W0 m ρ c)
theorem src2 : W2 m ρ c (Proc.devRef .tc main_v1) = srcOf x1 := (s01_keep (W1 m ρ c) main_v1 (by decide)).trans (src1 m ρ c)
theorem src3 : W3 m ρ c (Proc.devRef .tc main_v1) = srcOf x1 := (s02_keep (W2 m ρ c) main_v1 (by decide)).trans (src2 m ρ c)
theorem src4 : W4 m ρ c (Proc.devRef .tc main_v1) = srcOf x1 := (W4_of_ne m ρ c main_v1 (by decide)).trans (src3 m ρ c)
theorem dst1 : W1 m ρ c (Proc.devRef .tc main_v3) = dstOf x1 := s0_v3 (W0 m ρ c)
theorem dst2 : W2 m ρ c (Proc.devRef .tc main_v3) = dstOf x1 := (s01_keep (W1 m ρ c) main_v3 (by decide)).trans (dst1 m ρ c)
theorem dst3 : W3 m ρ c (Proc.devRef .tc main_v3) = dstOf x1 := (s02_keep (W2 m ρ c) main_v3 (by decide)).trans (dst2 m ρ c)
theorem dst4 : W4 m ρ c (Proc.devRef .tc main_v3) = dstOf x1 := (W4_of_ne m ρ c main_v3 (by decide)).trans (dst3 m ρ c)
theorem dst5 : W5 m ρ c (Proc.devRef .tc main_v3) = dstOf x1 := (s1_keep (W4 m ρ c) main_v3 (by decide)).trans (dst4 m ρ c)

/-! ## The precondition's two range facts, at the vectors of row numbers the takes read -/

/-- The precondition of the kernel program, as Defs.lean states it. -/
abbrev Pre : Prop := Cert.Pre_KernelIdeal m

variable {m}

theorem src_ok (hpre : Cert.Pre_KernelIdeal m) (e : Fin 800000) :
    0 ≤ (srcOf x1 (ix1 e)).toInt ∧ (srcOf x1 (ix1 e)).toInt < 50000 := by
  have h := Cert.Pre_finite_inputs.Decode.src_range x0 x1 x2 x3 x4 x5 x6 x7 x8 x9 x10 x11 x12 x13 (hpre c) e
  have hr : srcOf x1 (ix1 e) = x1 (ix2 (0 : Fin 2) e) := Cert.Pre_finite_inputs.Decode.row0_read x1 e
  rw [hr]; exact h

/-- Column `k` of the query pairs as a flat vector reads, at `q`, the array at (q, k). -/
theorem u_read (a2 : IVec S400000x2 32) (q : Fin 400000) : uOf a2 (ix1 q) = a2 (ix2 q (0 : Fin 2)) := by
  refine (shapeCast_apply _ shapeCasts_S400000x1_S400000 (ix1 q) (ix2 q (0 : Fin 1)) (by
    rw [Shape.rowMajor_val_two, Shape.rowMajor_val_one]; show q.val * 1 + 0 = q.val; omega)).trans ?_
  exact extractStridedSlice_apply ![0, 0] a2 slices_S400000x2_S400000x1_0_0 (ix2 q (0 : Fin 1)) (ix2 q (0 : Fin 2))
    (fun a => match a with
      | ⟨0, _⟩ => by show q.val = 0 + q.val; omega
      | ⟨1, _⟩ => by show (0 : Nat) = 0 + 0; omega)
theorem v_read (a2 : IVec S400000x2 32) (q : Fin 400000) : vOf a2 (ix1 q) = a2 (ix2 q (1 : Fin 2)) := by
  refine (shapeCast_apply _ shapeCasts_S400000x1_S400000 (ix1 q) (ix2 q (0 : Fin 1)) (by
    rw [Shape.rowMajor_val_two, Shape.rowMajor_val_one]; show q.val * 1 + 0 = q.val; omega)).trans ?_
  exact extractStridedSlice_apply ![0, 1] a2 slices_S400000x2_S400000x1_0_1 (ix2 q (0 : Fin 1)) (ix2 q (1 : Fin 2))
    (fun a => match a with
      | ⟨0, _⟩ => by show q.val = 0 + q.val; omega
      | ⟨1, _⟩ => by show (1 : Nat) = 1 + 0; omega)

theorem u_ok (hpre : Cert.Pre_KernelIdeal m) (q : Fin 400000) :
    0 ≤ (uOf x2 (ix1 q)).toInt ∧ (uOf x2 (ix1 q)).toInt < 50000 := by
  rw [u_read]
  exact Cert.Pre_finite_inputs.Decode.uv_range x0 x1 x2 x3 x4 x5 x6 x7 x8 x9 x10 x11 x12 x13 (hpre c) q 0
theorem v_ok (hpre : Cert.Pre_KernelIdeal m) (q : Fin 400000) :
    0 ≤ (vOf x2 (ix1 q)).toInt ∧ (vOf x2 (ix1 q)).toInt < 50000 := by
  rw [v_read]
  exact Cert.Pre_finite_inputs.Decode.uv_range x0 x1 x2 x3 x4 x5 x6 x7 x8 x9 x10 x11 x12 x13 (hpre c) q 1

/-! ## Reads of the layout operations on the weights and biases -/

/-- A transposed matrix at (k, j) is the matrix at (j, k). -/
theorem transpose2_apply {A B : Nat} (x : (⟨2, ![A, B]⟩ : Shape).Idx → EReal) (h : (⟨2, ![A, B]⟩ : Shape).Transposes [1, 0] ⟨2, ![B, A]⟩)
    (k : Fin B) (j : Fin A) : transpose ⟨2, ![B, A]⟩ [1, 0] x h (ix2 k j) = x (ix2 j k) :=
  transpose_apply [1, 0] x h (ix2 k j) (ix2 j k) (fun b => match b with
    | ⟨0, _⟩ => rfl
    | ⟨1, _⟩ => rfl)

/-- A vector of `n` entries reshaped to one row, at (0, j), is the vector at j. -/
theorem rowcast_apply {n : Nat} (x : (⟨1, ![n]⟩ : Shape).Idx → EReal) (h : (⟨1, ![n]⟩ : Shape).ShapeCasts ⟨2, ![1, n]⟩) (j : Fin n) :
    shapeCast ⟨2, ![1, n]⟩ x h (ix2 (0 : Fin 1) j) = x (ix1 j) :=
  shapeCast_apply x h (ix2 (0 : Fin 1) j) (ix1 j) (by
    rw [Shape.rowMajor_val_one, Shape.rowMajor_val_two]; show j.val = 0 * n + j.val; omega)

/-- A count vector broadcast to a column, at (p, 0), is the vector at p. -/
theorem col_apply (x : S50000.Idx → EReal) (p : Fin 50000) :
    broadcastInDim S50000x1 ![0] bcast_S50000_S50000x1_0 x (ix2 p (0 : Fin 1)) = x (ix1 p) :=
  broadcastInDim_apply ![0] bcast_S50000_S50000x1_0 x (ix2 p (0 : Fin 1)) (ix1 p) (fun a => by
    obtain rfl : a = 0 := Subsingleton.elim _ _
    show p.val = if (50000 : Nat) = 1 then 0 else p.val
    rw [if_neg (by decide)])

variable (m)

/-! ## Region 0: the first layer -/

theorem take0 (hpre : Cert.Pre_KernelIdeal m) : W2 m ρ c (Proc.devRef .tc main_v4)
    = Host.gather gather_S50000x128_S800000x1_S800000x128_1_0_n_n_0_1_1128 x0
        (broadcastInDim S800000x1 ![0] bcast_S800000_S800000x1_0 (Cert.LibTakeFill.shifted bcast_S_S800000 (srcOf x1))) := by
  refine (s01_v4 (W1 m ρ c)).trans ?_
  rw [a1 m ρ c main_arg0 (by decide), src1 m ρ c]
  exact Cert.LibTakeFill.takeFill_eq_gather _ _ _ _ _ _ _ _ _ x0 _ (srcOf x1) (src_ok c hpre)

/-- The summed neighbour features region 0 finds are the reference's. -/
theorem agg1 (hpre : Cert.Pre_KernelIdeal m) :
    W3 m ρ c (Proc.devRef .tc main_v7) = Cert.ReferenceIdeal.Read.val_main_v13 (F := Ideal) x0 x1 := by
  refine (s02_v7 (W2 m ρ c)).trans ?_
  rw [dst2 m ρ c, take0 m ρ c hpre]
  rfl

/-- The neighbour counts region 0 finds, as a vector, are the reference's. -/
theorem cnt1 : W3 m ρ c (Proc.devRef .tc main_v12)
    = broadcastInDim S50000x1 ![0] bcast_S50000_S50000x1_0 (Cert.ReferenceIdeal.Read.val_main_v17 (F := Ideal) x1) := by
  refine (s02_v12 (W2 m ρ c)).trans ?_
  rw [dst2 m ρ c]
  rfl

/-- REGION 0's OUTPUT is the reference's first hidden array. -/
theorem hidden1 (hpre : Cert.Pre_KernelIdeal m) :
    W4 m ρ c (Proc.devRef .tc main_v16) = Cert.ReferenceIdeal.Read.val_main_v31 (F := Ideal) x0 x1 x4 x5 x6 := by
  refine (W4_arr m ρ c 6).trans ((Cert.KernelIdeal.Region0.final0 (V3 m ρ) c).trans ?_)
  have e0 : V3 m ρ c main_arg0 = x0 := a3 m ρ c main_arg0 (by decide)
  rw [e0]
  refine Cert.ReferenceIdeal.Bridge.layer1 x0 x1 x4 x5 x6 _ _ _ _ _ (agg1 m ρ c hpre) (fun p => ?_) (fun k j => ?_) (fun k j => ?_) (fun j => ?_)
  · show W3 m ρ c (Proc.devRef .tc main_v12) (ix2 p (0 : Fin 1)) = _
    rw [cnt1 m ρ c]; exact col_apply _ p
  · show StableHlo.after hostOps0_2 (W2 m ρ c) (Proc.devRef .tc main_v13) (ix2 k j) = _
    rw [s02_v13 (W2 m ρ c), a2 m ρ c main_arg4 (by decide)]; exact transpose2_apply _ _ k j
  · show StableHlo.after hostOps0_2 (W2 m ρ c) (Proc.devRef .tc main_v14) (ix2 k j) = _
    rw [s02_v14 (W2 m ρ c), a2 m ρ c main_arg6 (by decide)]; exact transpose2_apply _ _ k j
  · show StableHlo.after hostOps0_2 (W2 m ρ c) (Proc.devRef .tc main_v15) (ix2 (0 : Fin 1) j) = _
    rw [s02_v15 (W2 m ρ c), a2 m ρ c main_arg5 (by decide)]; exact rowcast_apply _ _ j

/-! ## Region 1: the second layer -/

theorem hidden1_5 (hpre : Cert.Pre_KernelIdeal m) : W5 m ρ c (Proc.devRef .tc main_v16) = (Cert.ReferenceIdeal.Read.val_main_v31 (F := Ideal) x0 x1 x4 x5 x6) :=
  (s1_keep (W4 m ρ c) main_v16 (by decide)).trans (hidden1 m ρ c hpre)
theorem hidden1_6 (hpre : Cert.Pre_KernelIdeal m) : W6 m ρ c (Proc.devRef .tc main_v16) = (Cert.ReferenceIdeal.Read.val_main_v31 (F := Ideal) x0 x1 x4 x5 x6) :=
  (s11_keep (W5 m ρ c) main_v16 (by decide)).trans (hidden1_5 m ρ c hpre)

theorem take1 (hpre : Cert.Pre_KernelIdeal m) : W5 m ρ c (Proc.devRef .tc main_v17)
    = Host.gather gather_S50000x64_S800000x1_S800000x64_1_0_n_n_0_1_164 (Cert.ReferenceIdeal.Read.val_main_v31 (F := Ideal) x0 x1 x4 x5 x6)
        (broadcastInDim S800000x1 ![0] bcast_S800000_S800000x1_0 (Cert.LibTakeFill.shifted bcast_S_S800000 (srcOf x1))) := by
  refine (s1_v17 (W4 m ρ c)).trans ?_
  rw [hidden1 m ρ c hpre, src4 m ρ c]
  exact Cert.LibTakeFill.takeFill_eq_gather _ _ _ _ _ _ _ _ _ (Cert.ReferenceIdeal.Read.val_main_v31 (F := Ideal) x0 x1 x4 x5 x6) _ (srcOf x1) (src_ok c hpre)

/-- The summed neighbour features region 1 finds are the reference's. -/
theorem agg2 (hpre : Cert.Pre_KernelIdeal m) :
    W6 m ρ c (Proc.devRef .tc main_v20) = Cert.ReferenceIdeal.Read.val_main_v41 (F := Ideal) x0 x1 x4 x5 x6 := by
  refine (s11_v20 (W5 m ρ c)).trans ?_
  rw [dst5 m ρ c, take1 m ρ c hpre]
  rfl

theorem cnt2 : W6 m ρ c (Proc.devRef .tc main_v25)
    = broadcastInDim S50000x1 ![0] bcast_S50000_S50000x1_0 (Cert.ReferenceIdeal.Read.val_main_v45 (F := Ideal) x1) := by
  refine (s11_v25 (W5 m ρ c)).trans ?_
  rw [dst5 m ρ c]
  rfl

/-- REGION 1's OUTPUT is the reference's second hidden array. -/
theorem hidden2 (hpre : Cert.Pre_KernelIdeal m) : W7 m ρ c (Proc.devRef .tc main_v29) = (Cert.ReferenceIdeal.Read.val_main_v59 (F := Ideal) x0 x1 x4 x5 x6 x7 x8 x9) := by
  refine (W7_arr m ρ c 6).trans ((Cert.KernelIdeal.Region1.final1 (V6 m ρ) c).trans ?_)
  have e0 : V6 m ρ c main_v16 = (Cert.ReferenceIdeal.Read.val_main_v31 (F := Ideal) x0 x1 x4 x5 x6) := hidden1_6 m ρ c hpre
  rw [e0]
  refine Cert.ReferenceIdeal.Bridge.layer2 x0 x1 x4 x5 x6 x7 x8 x9 _ _ _ _ _ (agg2 m ρ c hpre) (fun p => ?_) (fun k j => ?_) (fun k j => ?_) (fun j => ?_)
  · show W6 m ρ c (Proc.devRef .tc main_v25) (ix2 p (0 : Fin 1)) = _
    rw [cnt2 m ρ c]; exact col_apply _ p
  · show StableHlo.after hostOps1_1 (W5 m ρ c) (Proc.devRef .tc main_v26) (ix2 k j) = _
    rw [s11_v26 (W5 m ρ c), a5 m ρ c main_arg7 (by decide)]; exact transpose2_apply _ _ k j
  · show StableHlo.after hostOps1_1 (W5 m ρ c) (Proc.devRef .tc main_v27) (ix2 k j) = _
    rw [s11_v27 (W5 m ρ c), a5 m ρ c main_arg9 (by decide)]; exact transpose2_apply _ _ k j
  · show StableHlo.after hostOps1_1 (W5 m ρ c) (Proc.devRef .tc main_v28) (ix2 (0 : Fin 1) j) = _
    rw [s11_v28 (W5 m ρ c), a5 m ρ c main_arg8 (by decide)]; exact rowcast_apply _ _ j

/-! ## Region 2: the edge scorer -/

theorem hidden2_8 (hpre : Cert.Pre_KernelIdeal m) : W8 m ρ c (Proc.devRef .tc main_v29) = (Cert.ReferenceIdeal.Read.val_main_v59 (F := Ideal) x0 x1 x4 x5 x6 x7 x8 x9) :=
  (s2_keep (W7 m ρ c) main_v29 (by decide)).trans (hidden2 m ρ c hpre)
theorem hidden2_9 (hpre : Cert.Pre_KernelIdeal m) : W9 m ρ c (Proc.devRef .tc main_v29) = (Cert.ReferenceIdeal.Read.val_main_v59 (F := Ideal) x0 x1 x4 x5 x6 x7 x8 x9) :=
  (s21_keep (W8 m ρ c) main_v29 (by decide)).trans (hidden2_8 m ρ c hpre)
theorem u8 : W8 m ρ c (Proc.devRef .tc main_v31) = uOf x2 := by
  refine (s2_v31 (W7 m ρ c)).trans ?_
  rw [a7 m ρ c main_arg2 (by decide)]
theorem v8 : W8 m ρ c (Proc.devRef .tc main_v33) = vOf x2 := by
  refine (s2_v33 (W7 m ρ c)).trans ?_
  rw [a7 m ρ c main_arg2 (by decide)]
theorem v9 : W9 m ρ c (Proc.devRef .tc main_v33) = vOf x2 :=
  (s21_keep (W8 m ρ c) main_v33 (by decide)).trans (v8 m ρ c)

/-- The rows of the second hidden array at the first endpoints are the reference's first gather. -/
theorem hu9 (hpre : Cert.Pre_KernelIdeal m) : W9 m ρ c (Proc.devRef .tc main_v34)
    = Cert.ReferenceIdeal.Read.val_main_v70 (F := Ideal) x0 x1 x2 x4 x5 x6 x7 x8 x9 := by
  refine (s21_v34 (W8 m ρ c)).trans ?_
  rw [hidden2_8 m ρ c hpre, u8 m ρ c]
  refine (Cert.LibTakeFill.takeFill_eq_gather _ _ _ _ _ _ _ _ _ (Cert.ReferenceIdeal.Read.val_main_v59 (F := Ideal) x0 x1 x4 x5 x6 x7 x8 x9) _ (uOf x2) (u_ok c hpre)).trans ?_
  rfl
theorem hu11 (hpre : Cert.Pre_KernelIdeal m) : W11 m ρ c (Proc.devRef .tc main_v34)
    = Cert.ReferenceIdeal.Read.val_main_v70 (F := Ideal) x0 x1 x2 x4 x5 x6 x7 x8 x9 :=
  (s23_keep (W10 m ρ c) main_v34 (by decide)).trans ((s22_keep (W9 m ρ c) main_v34 (by decide)).trans (hu9 m ρ c hpre))

/-- The rows of the second hidden array at the second endpoints are the reference's second gather. -/
theorem hv10 (hpre : Cert.Pre_KernelIdeal m) : W10 m ρ c (Proc.devRef .tc main_v35)
    = Cert.ReferenceIdeal.Read.val_main_v77 (F := Ideal) x0 x1 x2 x4 x5 x6 x7 x8 x9 := by
  refine (s22_v35 (W9 m ρ c)).trans ?_
  rw [hidden2_9 m ρ c hpre, v9 m ρ c]
  refine (Cert.LibTakeFill.takeFill_eq_gather _ _ _ _ _ _ _ _ _ (Cert.ReferenceIdeal.Read.val_main_v59 (F := Ideal) x0 x1 x4 x5 x6 x7 x8 x9) _ (vOf x2) (v_ok c hpre)).trans ?_
  rfl
theorem hv11 (hpre : Cert.Pre_KernelIdeal m) : W11 m ρ c (Proc.devRef .tc main_v35)
    = Cert.ReferenceIdeal.Read.val_main_v77 (F := Ideal) x0 x1 x2 x4 x5 x6 x7 x8 x9 :=
  (s23_keep (W10 m ρ c) main_v35 (by decide)).trans (hv10 m ρ c hpre)

/-- A column slice of the [64, 129] weight, transposed, at (k, j) is the weight at (j, offset + k). -/
theorem wslice_apply (x : S64x129.Idx → EReal) (off : Nat) (hoff : off + 64 ≤ 129)
    (hs : S64x129.Slices ![0, off] S64x64) (k j : Fin 64) :
    transpose S64x64 [1, 0] (extractStridedSlice S64x64 ![0, off] x hs) transposes_S64x64_S64x64_1_0 (ix2 k j)
      = x (ix2 j (⟨off + k.val, by omega⟩ : Fin 129)) := by
  refine (transpose2_apply _ _ k j).trans ?_
  exact extractStridedSlice_apply ![0, off] x hs (ix2 j k) (ix2 j (⟨off + k.val, by omega⟩ : Fin 129))
    (fun a => match a with
      | ⟨0, _⟩ => by show j.val = 0 + j.val; omega
      | ⟨1, _⟩ => by show off + k.val = off + k.val; rfl)

/-- REGION 2's OUTPUT is the reference's scorer column. -/
theorem scores (hpre : Cert.Pre_KernelIdeal m) : W12 m ρ c (Proc.devRef .tc main_v45)
    = Cert.ReferenceIdeal.Read.val_main_v89 (F := Ideal) x0 x1 x2 x3 x4 x5 x6 x7 x8 x9 x10 x11 x12 x13 := by
  refine (W12_arr m ρ c 9).trans ((Cert.KernelIdeal.Region2.final2 (V11 m ρ) c).trans ?_)
  have e3 : V11 m ρ c main_arg3 = x3 := a11 m ρ c main_arg3 (by decide)
  rw [e3]
  refine Cert.ReferenceIdeal.Bridge.scorer x0 x1 x2 x3 x4 x5 x6 x7 x8 x9 x10 x11 x12 x13 _ _ _ _ _ _ _ _ (hu11 m ρ c hpre) (hv11 m ρ c hpre)
    (fun k j => ?_) (fun k j => ?_) (fun j => ?_) (fun j => ?_) (fun j => ?_) ?_
  · show StableHlo.after hostOps2_3 (W10 m ρ c) (Proc.devRef .tc main_v37) (ix2 k j) = _
    rw [s23_v37 (W10 m ρ c), a10 m ρ c main_arg10 (by decide)]
    refine (wslice_apply _ 0 (by omega) _ k j).trans ?_
    exact congrArg x10 (congrArg (ix2 j) (Fin.ext (by show 0 + k.val = k.val; omega)))
  · show StableHlo.after hostOps2_3 (W10 m ρ c) (Proc.devRef .tc main_v39) (ix2 k j) = _
    rw [s23_v39 (W10 m ρ c), a10 m ρ c main_arg10 (by decide)]
    exact wslice_apply _ 64 (by omega) _ k j
  · show StableHlo.after hostOps2_3 (W10 m ρ c) (Proc.devRef .tc main_v41) (ix2 (0 : Fin 1) j) = _
    rw [s23_v41 (W10 m ρ c), a10 m ρ c main_arg10 (by decide)]
    refine (transpose_apply [1, 0] _ transposes_S64x1_S1x64_1_0 (ix2 (0 : Fin 1) j) (ix2 j (0 : Fin 1)) (fun b => match b with
      | ⟨0, _⟩ => rfl
      | ⟨1, _⟩ => rfl)).trans ?_
    exact extractStridedSlice_apply ![0, 128] x10 slices_S64x129_S64x1_0_128 (ix2 j (0 : Fin 1)) (ix2 j (⟨128, by omega⟩ : Fin 129))
      (fun a => match a with
        | ⟨0, _⟩ => by show j.val = 0 + j.val; omega
        | ⟨1, _⟩ => by show (128 : Nat) = 128 + 0; rfl)
  · show StableHlo.after hostOps2_3 (W10 m ρ c) (Proc.devRef .tc main_v43) (ix2 (0 : Fin 1) j) = _
    rw [s23_v43 (W10 m ρ c), a10 m ρ c main_arg11 (by decide)]; exact rowcast_apply _ _ j
  · show StableHlo.after hostOps2_3 (W10 m ρ c) (Proc.devRef .tc main_v42) (ix2 j (0 : Fin 1)) = _
    rw [s23_v42 (W10 m ρ c), a10 m ρ c main_arg12 (by decide)]; exact transpose2_apply _ _ j (0 : Fin 1)
  · show StableHlo.after hostOps2_3 (W10 m ρ c) (Proc.devRef .tc main_v44) (ix2 (0 : Fin 1) (0 : Fin 1)) = _
    rw [s23_v44 (W10 m ρ c), a10 m ρ c main_arg13 (by decide)]; exact rowcast_apply _ _ (0 : Fin 1)

/-- THE KERNEL'S RESULT is the reference's last stage, as a function of the same arguments. -/
theorem result (hpre : Cert.Pre_KernelIdeal m) : W13 m ρ c (Proc.devRef .tc main_v46)
    = Cert.ReferenceIdeal.Read.val_main_v90 (F := Ideal) x0 x1 x2 x3 x4 x5 x6 x7 x8 x9 x10 x11 x12 x13 := by
  refine (s3_v46 (W12 m ρ c)).trans ?_
  rw [scores m ρ c hpre]
  rfl

end Cert.Proof.KernelValue

end
-- ==== Proof.lean ====
/-
  The certificate of the link-prediction model: two SAGE layers over an edge list and an edge scorer over query pairs,
  computed by three tiled matrix kernels between host gathers and segment sums, against the jnp reference.

  At the extended reals both programs compute, per query, the scorer of the two endpoint rows of the second hidden array,
  which is the second layer of the first hidden array, which is the first layer of the node features; a layer is
  max (Σ_k (agg[i,k] / max (cnt[i], 1)) · Wl[j,k] + Σ_k h[i,k] · Wr[j,k] + b[j], 0) with agg the sum of the rows of h at the
  sources of the edges into node i and cnt their number. The two programs differ in the order of the three summands of a
  layer, in the scorer's first product (one sum over the 129 joined columns against three sums over 64, 64 and 1), in the
  tiling, and in how a row take treats a row number outside the table: the kernel's fills the row, the reference's clamps
  the number. Under the precondition every row number taken is a node number, so the takes agree; sums of extended reals
  regroup freely; no finiteness is used.

  Frames: the kernel programs' are the generated ones; the reference's is its generated run with the result dropped.
  Nothing was rewritten by the ideal pass, so the preservation claim is trivial. The algebraic claim: the kernel's run
  ends with its result at the reference's last stage of the kernel's arguments (Proof/KernelValue.lean), and the
  reference's run ends at that stage of its own arguments, which agree.
-/
import proofs.«420615_j64235530879430_2_alg».proof.Defs
import proofs.«420615_j64235530879430_2_alg».proof.Proof.Gen.Kernel
import proofs.«420615_j64235530879430_2_alg».proof.Proof.Gen.Kernel.Skeleton
import proofs.«420615_j64235530879430_2_alg».proof.Proof.Gen.Kernel.Launch
import proofs.«420615_j64235530879430_2_alg».proof.Proof.Gen.Kernel.Points
import proofs.«420615_j64235530879430_2_alg».proof.Proof.Gen.Kernel.Frame
import proofs.«420615_j64235530879430_2_alg».proof.Proof.Gen.KernelIdeal
import proofs.«420615_j64235530879430_2_alg».proof.Proof.Gen.KernelIdeal.Skeleton
import proofs.«420615_j64235530879430_2_alg».proof.Proof.Gen.KernelIdeal.Launch
import proofs.«420615_j64235530879430_2_alg».proof.Proof.Gen.KernelIdeal.Points
import proofs.«420615_j64235530879430_2_alg».proof.Proof.Gen.KernelIdeal.Frame
import proofs.«420615_j64235530879430_2_alg».proof.Proof.Gen.ReferenceIdeal
import proofs.«420615_j64235530879430_2_alg».proof.Proof.Gen.ReferenceIdeal.Run
import proofs.«420615_j64235530879430_2_alg».proof.Proof.Gen.ReferenceIdeal.Read
import proofs.«420615_j64235530879430_2_alg».proof.Proof.Gen.Pre_finite_inputs
import proofs.«420615_j64235530879430_2_alg».proof.Proof.RunMain
import proofs.«420615_j64235530879430_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the reference's last stage of the (agreeing) arguments. -/
theorem algebraic : Cert.algebraic_KernelIdeal_ReferenceIdeal := by
  intro m ρ m' ρ' hpre hagree
  refine ⟨fun c => Cert.ReferenceIdeal.Read.val_main_v90 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.Proof.KernelValue.result m ρ c hpre), (h c).2⟩)
      (Cert.KernelIdeal.Gen.run_main m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13⟩ := hagree c
    rw [Cert.ReferenceIdeal.Read.val_main_v90_eq, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
